-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x32 : Shape := ⟨2, ![320000, 32]⟩
abbrev S128x64 : Shape := ⟨2, ![128, 64]⟩
abbrev S32x64 : Shape := ⟨2, ![32, 64]⟩
abbrev S64x64 : Shape := ⟨2, ![64, 64]⟩
abbrev S320000 : Shape := ⟨1, ![320000]⟩
abbrev S2560000 : Shape := ⟨1, ![2560000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x32 : S_.BroadcastsInDim S320000x32 (![] : Fin 0 → Fin S320000x32.rank)
  reducesTo_S320000x32_S_d0_1 : S320000x32.ReducesTo [0, 1] S_
  bcast_S_S128x64 : S_.BroadcastsInDim S128x64 (![] : Fin 0 → Fin S128x64.rank)
  reducesTo_S128x64_S_d0_1 : S128x64.ReducesTo [0, 1] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S320000 : S_.BroadcastsInDim S320000 (![] : Fin 0 → Fin S320000.rank)
  reducesTo_S320000_S_d0 : S320000.ReducesTo [0] S_
  bcast_S_S2560000 : S_.BroadcastsInDim S2560000 (![] : Fin 0 → Fin S2560000.rank)
  reducesTo_S2560000_S_d0 : S2560000.ReducesTo [0] S_

variable [Facts]

def fn_part2 {F : FTy → Type} [FloatOps F] (main_arg6 : IVec S2560000 32) (main_v30 : IVec S_ 1) (main_v32 : IVec S2560000 1) (main_c_12 : IVec S_ 32) : IVec S_ 1 :=
  let main_v33 : IVec S2560000 32 := broadcastInDim S2560000 ![] bcast_S_S2560000 main_c_12
  let main_v34 : IVec S2560000 1 := cmpi .slt main_arg6 main_v33
  let main_v35 : IVec S2560000 1 := andi main_v32 main_v34
  let main_c_13 : IVec S_ 1 := constantI S_ 1 1#1
  let main_v36 : IVec S_ 1 := (fun x v => Host.reduce IntOp.andi x v reducesTo_S2560000_S_d0 h_S_) main_v35 main_c_13
  let main_v37 : IVec S_ 1 := andi main_v30 main_v36
  main_v37

def fn_part1 {F : FTy → Type} [FloatOps F] (main_arg4 : FVec F S64x64 .f32) (main_arg5 : IVec S320000 32) (main_arg6 : IVec S2560000 32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 0#32
  let main_v24 : IVec S320000 32 := broadcastInDim S320000 ![] bcast_S_S320000 main_c_8
  let main_v25 : IVec S320000 1 := cmpi .sge main_arg5 main_v24
  let main_c_9 : IVec S_ 32 := constantI S_ 32 10000#32
  let main_v26 : IVec S320000 32 := broadcastInDim S320000 ![] bcast_S_S320000 main_c_9
  let main_v27 : IVec S320000 1 := cmpi .slt main_arg5 main_v26
  let main_v28 : IVec S320000 1 := andi main_v25 main_v27
  let main_c_10 : IVec S_ 1 := constantI S_ 1 1#1
  let main_v29 : IVec S_ 1 := (fun x v => Host.reduce IntOp.andi x v reducesTo_S320000_S_d0 h_S_) main_v28 main_c_10
  let main_v30 : IVec S_ 1 := andi main_v23 main_v29
  let main_c_11 : IVec S_ 32 := constantI S_ 32 0#32
  let main_v31 : IVec S2560000 32 := broadcastInDim S2560000 ![] bcast_S_S2560000 main_c_11
  let main_v32 : IVec S2560000 1 := cmpi .sge main_arg6 main_v31
  let main_c_12 : IVec S_ 32 := constantI S_ 32 320000#32
  fn_part2 (F := F) main_arg6 main_v30 main_v32 main_c_12

def fn {F : FTy → Type} [FloatOps F] (main_arg0 : FVec F S10000x128 .f32) (main_arg1 : FVec F S320000x32 .f32) (main_arg2 : FVec F S128x64 .f32) (main_arg3 : FVec F S32x64 .f32) (main_arg4 : FVec F S64x64 .f32) (main_arg5 : IVec S320000 32) (main_arg6 : IVec S2560000 32) (main_arg7 : IVec S2560000 32) (main_arg8 : IVec S320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x32 .f32 := Host.absf main_arg1
  let main_cst_0 : FVec F S_ .f32 := constant S_ .f32 0x7F800000#32
  let main_v5 : FVec F S320000x32 .f32 := broadcastInDim S320000x32 ![] bcast_S_S320000x32 main_cst_0
  let main_v6 : IVec S320000x32 1 := cmpf .olt main_v4 main_v5
  let main_c_1 : IVec S_ 1 := constantI S_ 1 1#1
  let main_v7 : IVec S_ 1 := (fun x v => Host.reduce IntOp.andi x v reducesTo_S320000x32_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_v13 main_v16
-- ==== Kernel.lean ====
abbrev S10000x128 : Shape := ⟨2, ![10000, 128]⟩
abbrev S320000x32 : Shape := ⟨2, ![320000, 32]⟩
abbrev S128x64 : Shape := ⟨2, ![128, 64]⟩
abbrev S32x64 : Shape := ⟨2, ![32, 64]⟩
abbrev S64x64 : Shape := ⟨2, ![64, 64]⟩
abbrev S320000 : Shape := ⟨1, ![320000]⟩
abbrev S2560000 : Shape := ⟨1, ![2560000]⟩
abbrev S10000x64 : Shape := ⟨2, ![10000, 64]⟩
abbrev S5000x128 : Shape := ⟨2, ![5000, 128]⟩
abbrev S5000x64 : Shape := ⟨2, ![5000, 64]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x64 : Shape := ⟨2, ![320000, 64]⟩
abbrev S6400x64 : Shape := ⟨2, ![6400, 64]⟩
abbrev S6400x32 : Shape := ⟨2, ![6400, 32]⟩
abbrev S2560000x1 : Shape := ⟨2, ![2560000, 1]⟩
abbrev S2560000x64 : Shape := ⟨2, ![2560000, 64]⟩

abbrev nBuf : Space → Nat
  | .hbm => 123
  | .vmem => 35
  | .smem => 0
  | _ => 0

abbrev bufTy : (tb : Table) → Fin (tcTables nBuf tb) → BufTy
  | .hbm, ⟨0, _⟩ => ⟨S10000x128, .f32⟩
  | .hbm, ⟨1, _⟩ => ⟨S320000x32, .f32⟩
  | .hbm, ⟨2, _⟩ => ⟨S128x64, .f32⟩
  | .hbm, ⟨3, _⟩ => ⟨S32x64, .f32⟩
  | .hbm, ⟨4, _⟩ => ⟨S64x64, .f32⟩
  | .hbm, ⟨5, _⟩ => ⟨S320000, .i32⟩
  | .hbm, ⟨6, _⟩ => ⟨S2560000, .i32⟩
  | .hbm, ⟨7, _⟩ => ⟨S2560000, .i32⟩
  | .hbm, ⟨8, _⟩ => ⟨S320000, .i32⟩
  | .hbm, ⟨9, _⟩ => ⟨S10000x64, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S1, .i32⟩
  | .hbm, ⟨19, _⟩ => ⟨S_, .i32⟩
  | .hbm, ⟨20, _⟩ => ⟨S320000x1, .i32⟩
  | .hbm, ⟨21, _⟩ => ⟨S320000x1, .i1⟩
  | .hbm, ⟨22, _⟩ => ⟨S1x1, .i32⟩
  | .hbm, ⟨23, _⟩ => ⟨S320000x1, .i32⟩
  | .hbm, ⟨24, _⟩ => ⟨S320000x1, .i1⟩
  | .hbm, ⟨25, _⟩ => ⟨S320000x1, .i1⟩
  | .hbm, ⟨26, _⟩ => ⟨S_, .i1⟩
  | .hbm, ⟨27, _⟩ => ⟨S320000, .i1⟩
  | .hbm, ⟨28, _⟩ => ⟨S320000x64, .f32⟩
  | .hbm, ⟨29, _⟩ => ⟨S320000x64, .i1⟩
  | .hbm, ⟨30, _⟩ => ⟨S_, .f32⟩
  | .hbm, ⟨31, _⟩ => ⟨S320000x64, .f32⟩
  | .hbm, ⟨32, _⟩ => ⟨S320000x64, .f32⟩
  | .hbm, ⟨33, _⟩ => ⟨S320000x64, .f32⟩
  | .hbm, ⟨34, _⟩ => ⟨S320000x64, .f32⟩
  | .hbm, ⟨35, _⟩ => ⟨S_, .i32⟩
  | .hbm, ⟨36, _⟩ => ⟨S2560000, .i32⟩
  | .hbm, ⟨37, _⟩ => ⟨S2560000, .i1⟩
  | .hbm, ⟨38, _⟩ => ⟨S_, .i32⟩
  | .hbm, ⟨39, _⟩ => ⟨S2560000, .i32⟩
  | .hbm, ⟨40, _⟩ => ⟨S2560000, .i32⟩
  | .hbm, ⟨41, _⟩ => ⟨S2560000, .i32⟩
  | .hbm, ⟨42, _⟩ => ⟨S2560000x1, .i32⟩
  | .hbm, ⟨43, _⟩ => ⟨S1, .i32⟩
  | .hbm, ⟨44, _⟩ => ⟨S_, .i32⟩
  | .hbm, ⟨45, _⟩ => ⟨S2560000x1, .i32⟩
  | .hbm, ⟨46, _⟩ => ⟨S2560000x1, .i1⟩
  | .hbm, ⟨47, _⟩ => ⟨S1x1, .i32⟩
  | .hbm, ⟨48, _⟩ => ⟨S2560000x1, .i32⟩
  | .hbm, ⟨49, _⟩ => ⟨S2560000x1, .i1⟩
  | .hbm, ⟨50, _⟩ => ⟨S2560000x1, .i1⟩
  | .hbm, ⟨51, _⟩ => ⟨S_, .i1⟩
  | .hbm, ⟨52, _⟩ => ⟨S2560000, .i1⟩
  | .hbm, ⟨53, _⟩ => ⟨S2560000x64, .f32⟩
  | .hbm, ⟨54, _⟩ => ⟨S2560000x64, .i1⟩
  | .hbm, ⟨55, _⟩ => ⟨S_, .f32⟩
  | .hbm, ⟨56, _⟩ => ⟨S2560000x64, .f32⟩
  | .hbm, ⟨57, _⟩ => ⟨S2560000x64, .f32⟩
  | .hbm, ⟨58, _⟩ => ⟨S_, .f32⟩
  | .hbm, ⟨59, _⟩ => ⟨S320000x64, .f32⟩
  | .hbm, ⟨60, _⟩ => ⟨S2560000x1, .i32⟩
  | .hbm, ⟨61, _⟩ => ⟨S320000x64, .f32⟩
  | .hbm, ⟨62, _⟩ => ⟨S320000x64, .f32⟩
  | .hbm, ⟨63, _⟩ => ⟨S_, .i32⟩
  | .hbm, ⟨64, _⟩ => ⟨S2560000, .i32⟩
  | .hbm, ⟨65, _⟩ => ⟨S2560000, .i1⟩
  | .hbm, ⟨66, _⟩ => ⟨S_, .i32⟩
  | .hbm, ⟨67, _⟩ => ⟨S2560000, .i32⟩
  | .hbm, ⟨68, _⟩ => ⟨S2560000, .i32⟩
  | .hbm, ⟨69, _⟩ => ⟨S2560000, .i32⟩
  | .hbm, ⟨70, _⟩ => ⟨S2560000x1, .i32⟩
  | .hbm, ⟨71, _⟩ => ⟨S1, .i32⟩
  | .hbm, ⟨72, _⟩ => ⟨S_, .i32⟩
  | .hbm, ⟨73, _⟩ => ⟨S2560000x1, .i32⟩
  | .hbm, ⟨74, _⟩ => ⟨S2560000x1, .i1⟩
  | .hbm, ⟨75, _⟩ => ⟨S1x1, .i32⟩
  | .hbm, ⟨76, _⟩ => ⟨S2560000x1, .i32⟩
  | .hbm, ⟨77, _⟩ => ⟨S2560000x1, .i1⟩
  | .hbm, ⟨78, _⟩ => ⟨S2560000x1, .i1⟩
  | .hbm, ⟨79, _⟩ => ⟨S_, .i1⟩
  | .hbm, ⟨80, _⟩ => ⟨S2560000, .i1⟩
  | .hbm, ⟨81, _⟩ => ⟨S2560000x64, .f32⟩
  | .hbm, ⟨82, _⟩ => ⟨S2560000x64, .i1⟩
  | .hbm, ⟨83, _⟩ => ⟨S_, .f32⟩
  | .hbm, ⟨84, _⟩ => ⟨S2560000x64, .f32⟩
  | .hbm, ⟨85, _⟩ => ⟨S2560000x64, .f32⟩
  | .hbm, ⟨86, _⟩ => ⟨S_, .f32⟩
  | .hbm, ⟨87, _⟩ => ⟨S320000x64, .f32⟩
  | .hbm, ⟨88, _⟩ => ⟨S2560000x1, .i32⟩
  | .hbm, ⟨89, _⟩ => ⟨S320000x64, .f32⟩
  | .hbm, ⟨90, _⟩ => ⟨S320000x64, .f32⟩
  | .hbm, ⟨91, _⟩ => ⟨S_, .i32⟩
  | .hbm, ⟨92, _⟩ => ⟨S2560000, .i32⟩
  | .hbm, ⟨93, _⟩ => ⟨S2560000, .i1⟩
  | .hbm, ⟨94, _⟩ => ⟨S_, .i32⟩
  | .hbm, ⟨95, _⟩ => ⟨S2560000, .i32⟩
  | .hbm, ⟨96, _⟩ => ⟨S2560000, .i32⟩
  | .hbm, ⟨97, _⟩ => ⟨S2560000, .i32⟩
  | .hbm, ⟨98, _⟩ => ⟨S2560000x1, .i32⟩
  | .hbm, ⟨99, _⟩ => ⟨S1, .i32⟩
  | .hbm, ⟨100, _⟩ => ⟨S_, .i32⟩
  | .hbm, ⟨101, _⟩ => ⟨S2560000x1, .i32⟩
  | .hbm, ⟨102, _⟩ => ⟨S2560000x1, .i1⟩
  | .hbm, ⟨103, _⟩ => ⟨S1x1, .i32⟩
  | .hbm, ⟨104, _⟩ => ⟨S2560000x1, .i32⟩
  | .hbm, ⟨105, _⟩ => ⟨S2560000x1, .i1⟩
  | .hbm, ⟨106, _⟩ => ⟨S2560000x1, .i1⟩
  | .hbm, ⟨107, _⟩ => ⟨S_, .i1⟩
  | .hbm, ⟨108, _⟩ => ⟨S2560000, .i1⟩
  | .hbm, ⟨109, _⟩ => ⟨S2560000x64, .f32⟩
  | .hbm, ⟨110, _⟩ => ⟨S2560000x64, .i1⟩
  | .hbm, ⟨111, _⟩ => ⟨S_, .f32⟩
  | .hbm, ⟨112, _⟩ => ⟨S2560000x64, .f32⟩
  | .hbm, ⟨113, _⟩ => ⟨S2560000x64, .f32⟩
  | .hbm, ⟨114, _⟩ => ⟨S_, .f32⟩
  | .hbm, ⟨115, _⟩ => ⟨S320000x64, .f32⟩
  | .hbm, ⟨116, _⟩ => ⟨S2560000x1, .i32⟩
  | .hbm, ⟨117, _⟩ => ⟨S320000x64, .f32⟩
  | .hbm, ⟨118, _⟩ => ⟨S320000x64, .f32⟩
  | .hbm, ⟨119, _⟩ => ⟨S_, .f32⟩
  | .hbm, ⟨120, _⟩ => ⟨S10000x64, .f32⟩
  | .hbm, ⟨121, _⟩ => ⟨S320000x1, .i32⟩
  | .hbm, ⟨122, _⟩ => ⟨S10000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S6400x64, .f32⟩
  | .local _ .vmem, ⟨6, _⟩ => ⟨S6400x64, .f32⟩
  | .local _ .vmem, ⟨7, _⟩ => ⟨S6400x32, .f32⟩
  | .local _ .vmem, ⟨8, _⟩ => ⟨S6400x32, .f32⟩
  | .local _ .vmem, ⟨9, _⟩ => ⟨S32x64, .f32⟩
  | .local _ .vmem, ⟨10, _⟩ => ⟨S6400x64, .f32⟩
  | .local _ .vmem, ⟨11, _⟩ => ⟨S6400x64, .f32⟩
  | .local _ .vmem, ⟨12, _⟩ => ⟨S6400x64, .f32⟩
  | .local _ .vmem, ⟨13, _⟩ => ⟨S6400x64, .f32⟩
  | .local _ .vmem, ⟨14, _⟩ => ⟨S6400x64, .f32⟩
  | .local _ .vmem, ⟨15, _⟩ => ⟨S6400x64, .f32⟩
  | .local _ .vmem, ⟨16, _⟩ => ⟨S6400x64, .f32⟩
  | .local _ .vmem, ⟨17, _⟩ => ⟨S6400x64, .f32⟩
  | .local _ .vmem, ⟨18, _⟩ => ⟨S64x64, .f32⟩
  | .local _ .vmem, ⟨19, _⟩ => ⟨S6400x64, .f32⟩
  | .local _ .vmem, ⟨20, _⟩ => ⟨S6400x64, .f32⟩
  | .local _ .vmem, ⟨21, _⟩ => ⟨S6400x64, .f32⟩
  | .local _ .vmem, ⟨22, _⟩ => ⟨S6400x64, .f32⟩
  | .local _ .vmem, ⟨23, _⟩ => ⟨S6400x64, .f32⟩
  | .local _ .vmem, ⟨24, _⟩ => ⟨S6400x64, .f32⟩
  | .local _ .vmem, ⟨25, _⟩ => ⟨S64x64, .f32⟩
  | .local _ .vmem, ⟨26, _⟩ => ⟨S6400x64, .f32⟩
  | .local _ .vmem, ⟨27, _⟩ => ⟨S6400x64, .f32⟩
  | .local _ .vmem, ⟨28, _⟩ => ⟨S6400x64, .f32⟩
  | .local _ .vmem, ⟨29, _⟩ => ⟨S6400x64, .f32⟩
  | .local _ .vmem, ⟨30, _⟩ => ⟨S6400x64, .f32⟩
  | .local _ .vmem, ⟨31, _⟩ => ⟨S6400x64, .f32⟩
  | .local _ .vmem, ⟨32, _⟩ => ⟨S64x64, .f32⟩
  | .local _ .vmem, ⟨33, _⟩ => ⟨S6400x64, .f32⟩
  | .local _ .vmem, ⟨34, _⟩ => ⟨S6400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2_0 : Ref sig .tc := ⟨.hbm, 33, rfl⟩
abbrev main_v2_1 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v3 : Ref sig .tc := ⟨.hbm, 57, rfl⟩
abbrev main_cst : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v8 : Ref sig .tc := ⟨.hbm, 85, rfl⟩
abbrev main_cst_0 : Ref sig .tc := ⟨.hbm, 86, rfl⟩
abbrev main_v9 : Ref sig .tc := ⟨.hbm, 87, rfl⟩
abbrev main_v10 : Ref sig .tc := ⟨.hbm, 88, rfl⟩
abbrev main_v11 : Ref sig .tc := ⟨.hbm, 89, rfl⟩
abbrev main_v12 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v13 : Ref sig .tc := ⟨.hbm, 113, rfl⟩
abbrev main_cst_1 : Ref sig .tc := ⟨.hbm, 114, rfl⟩
abbrev main_v14 : Ref sig .tc := ⟨.hbm, 115, rfl⟩
abbrev main_v15 : Ref sig .tc := ⟨.hbm, 116, rfl⟩
abbrev main_v16 : Ref sig .tc := ⟨.hbm, 117, rfl⟩
abbrev main_v17 : Ref sig .tc := ⟨.hbm, 118, rfl⟩
abbrev main_cst_2 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S6400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S6400x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x64_0 : S320000.BroadcastsInDim S320000x64 (![0] : Fin 1 → Fin S320000x64.rank)
  bcast_S_S320000x64 : S_.BroadcastsInDim S320000x64 (![] : Fin 0 → Fin S320000x64.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x32_S6400x32_0_0 : ∀ a, (![0, 0] : Fin 2 → Nat) a + S6400x32.size a ≤ S6400x32.size a
  h_S6400x32 : 0 < S6400x32.numel
  inb_S32x64_S32x64_0_0 : ∀ a, (![0, 0] : Fin 2 → Nat) a + S32x64.size a ≤ S32x64.size a
  h_S32x64 : 0 < S32x64.numel
  bcast_S_S2560000 : S_.BroadcastsInDim S2560000 (![] : Fin 0 → Fin S2560000.rank)
  bcast_S2560000_S2560000x1_0 : S2560000.BroadcastsInDim S2560000x1 (![0] : Fin 1 → Fin S2560000x1.rank)
  bcast_S_S2560000x1 : S_.BroadcastsInDim S2560000x1 (![] : Fin 0 → Fin S2560000x1.rank)
  bcast_S1x1_S2560000x1_0_1 : S1x1.BroadcastsInDim S2560000x1 (![0, 1] : Fin 2 → Fin S2560000x1.rank)
  reducesTo_S2560000x1_S2560000_d1 : S2560000x1.ReducesTo [1] S2560000
  bcast_S2560000_S2560000x64_0 : S2560000.BroadcastsInDim S2560000x64 (![0] : Fin 1 → Fin S2560000x64.rank)
  bcast_S_S2560000x64 : S_.BroadcastsInDim S2560000x64 (![] : Fin 0 → Fin S2560000x64.rank)
  inb_S64x64_S64x64_0_0 : ∀ a, (![0, 0] : Fin 2 → Nat) a + S64x64.size a ≤ S64x64.size a
  h_S64x64 : 0 < S64x64.numel
  bcast_S_S10000x64 : S_.BroadcastsInDim S10000x64 (![] : Fin 0 → Fin S10000x64.rank)
  dot_S5000x128_S128x64_S5000x64_1_0_0_1_n_n_wf : DotDims.WF S5000x128 S128x64 S5000x64 [1] [0] [0] [1] [] []
  gather_S10000x64_S320000x1_S320000x64_1_0_n_n_0_1_164_wf : GatherDims.WF S10000x64 S320000x1 S320000x64 [1] [0] [] [0] [] 1 ![1, 64]
  dot_S6400x32_S32x64_S6400x64_1_0_0_1_n_n_wf : DotDims.WF S6400x32 S32x64 S6400x64 [1] [0] [0] [1] [] []
  gather_S320000x64_S2560000x1_S2560000x64_1_0_n_n_0_1_164_wf : GatherDims.WF S320000x64 S2560000x1 S2560000x64 [1] [0] [] [0] [] 1 ![1, 64]
  scatter_S320000x64_S2560000x1_S2560000x64_1_0_0_1_wf : ScatterDims.WF S320000x64 S2560000x1 S2560000x64 [1] [0] [0] 1
  dot_S6400x64_S64x64_S6400x64_1_0_0_1_n_n_wf : DotDims.WF S6400x64 S64x64 S6400x64 [1] [0] [0] [1] [] []
  scatter_S10000x64_S320000x1_S320000x64_1_0_0_1_wf : ScatterDims.WF S10000x64 S320000x1 S320000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S10000x128.size a
  hwx0_0 : ∀ i : grid0.Coords, EltTy.bits .f32 = 32 ∨ (Rect.block (s := S10000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S10000x64.size a
  hwx0_2 : ∀ i : grid0.Coords, EltTy.bits .f32 = 32 ∨ (Rect.block (s := S10000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S320000x64.size a
  hwx1_0 : ∀ i : grid1.Coords, EltTy.bits .f32 = 32 ∨ (Rect.block (s := S320000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x32.size a ≤ S320000x32.size a
  hwx1_1 : ∀ i : grid1.Coords, EltTy.bits .f32 = 32 ∨ (Rect.block (s := S320000x32) S6400x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x64.size a ≤ S320000x64.size a
  hwx1_3 : ∀ i : grid1.Coords, EltTy.bits .f32 = 32 ∨ (Rect.block (s := S320000x64) S6400x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x64.size a ≤ S320000x64.size a
  hwx1_4 : ∀ i : grid1.Coords, EltTy.bits .f32 = 32 ∨ (Rect.block (s := S320000x64) S6400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S320000x64.size a
  hwx2_0 : ∀ i : grid2.Coords, EltTy.bits .f32 = 32 ∨ (Rect.block (s := S320000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S320000x64.size a
  hwx2_1 : ∀ i : grid2.Coords, EltTy.bits .f32 = 32 ∨ (Rect.block (s := S320000x64) S6400x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6400x64.size a ≤ S320000x64.size a
  hwx2_3 : ∀ i : grid2.Coords, EltTy.bits .f32 = 32 ∨ (Rect.block (s := S320000x64) S6400x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x64.size a ≤ S320000x64.size a
  hwx3_0 : ∀ i : grid3.Coords, EltTy.bits .f32 = 32 ∨ (Rect.block (s := S320000x64) S6400x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x64.size a ≤ S320000x64.size a
  hwx3_1 : ∀ i : grid3.Coords, EltTy.bits .f32 = 32 ∨ (Rect.block (s := S320000x64) S6400x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S6400x64.size a ≤ S320000x64.size a
  hwx3_3 : ∀ i : grid3.Coords, EltTy.bits .f32 = 32 ∨ (Rect.block (s := S320000x64) S6400x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S320000x64.size a
  hwx4_0 : ∀ i : grid4.Coords, EltTy.bits .f32 = 32 ∨ (Rect.block (s := S320000x64) S6400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x64.size a ≤ S320000x64.size a
  hwx4_1 : ∀ i : grid4.Coords, EltTy.bits .f32 = 32 ∨ (Rect.block (s := S320000x64) S6400x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6400x64.size a ≤ S320000x64.size a
  hwx4_3 : ∀ i : grid4.Coords, EltTy.bits .f32 = 32 ∨ (Rect.block (s := S320000x64) S6400x64.size (cc4_transform_3 i) (hinb4_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def dot_S6400x32_S32x64_S6400x64_1_0_0_1_n_n : DotDims S6400x32 S32x64 S6400x64 where
  lhsContracting := [1]
  rhsContracting := [0]
  lhsNonContracting := [0]
  rhsNonContracting := [1]
  lhsBatch := []
  rhsBatch := []
  wf := dot_S6400x32_S32x64_S6400x64_1_0_0_1_n_n_wf
def gather_S320000x64_S2560000x1_S2560000x64_1_0_n_n_0_1_164 : GatherDims S320000x64 S2560000x1 S2560000x64 where
  offsetDims := [1]
  collapsedSliceDims := [0]
  operandBatchingDims := []
  startIndicesBatchingDims := []
  startIndexMap := [0]
  indexVectorDim := 1
  sliceSizes := ![1, 64]
  wf := gather_S320000x64_S2560000x1_S2560000x64_1_0_n_n_0_1_164_wf
def scatter_S320000x64_S2560000x1_S2560000x64_1_0_0_1 : ScatterDims S320000x64 S2560000x1 S2560000x64 where
  updateWindowDims := [1]
  insertedWindowDims := [0]
  scatterDimsToOperandDims := [0]
  indexVectorDim := 1
  wf := scatter_S320000x64_S2560000x1_S2560000x64_1_0_0_1_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6400x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S6400x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S6400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S6400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S6400x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_0) S6400x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S6400x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v16) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2_0) S6400x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v17) S6400x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x128 : Shape := ⟨2, ![10000, 128]⟩
abbrev S320000x32 : Shape := ⟨2, ![320000, 32]⟩
abbrev S128x64 : Shape := ⟨2, ![128, 64]⟩
abbrev S32x64 : Shape := ⟨2, ![32, 64]⟩
abbrev S64x64 : Shape := ⟨2, ![64, 64]⟩
abbrev S320000 : Shape := ⟨1, ![320000]⟩
abbrev S2560000 : Shape := ⟨1, ![2560000]⟩
abbrev S_ : Shape := ⟨0, ![]⟩
abbrev S320000x1 : Shape := ⟨2, ![320000, 1]⟩
abbrev S320000x128 : Shape := ⟨2, ![320000, 128]⟩
abbrev S320000x64 : Shape := ⟨2, ![320000, 64]⟩
abbrev S2560000x1 : Shape := ⟨2, ![2560000, 1]⟩
abbrev S2560000x64 : Shape := ⟨2, ![2560000, 64]⟩
abbrev S10000x64 : Shape := ⟨2, ![10000, 64]⟩

abbrev nBuf : Space → Nat
  | .hbm => 82
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x32, .f32⟩
  | .hbm, ⟨2, _⟩ => ⟨S128x64, .f32⟩
  | .hbm, ⟨3, _⟩ => ⟨S32x64, .f32⟩
  | .hbm, ⟨4, _⟩ => ⟨S64x64, .f32⟩
  | .hbm, ⟨5, _⟩ => ⟨S320000, .i32⟩
  | .hbm, ⟨6, _⟩ => ⟨S2560000, .i32⟩
  | .hbm, ⟨7, _⟩ => ⟨S2560000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x128, .f32⟩
  | .hbm, ⟨18, _⟩ => ⟨S320000x64, .f32⟩
  | .hbm, ⟨19, _⟩ => ⟨S320000x64, .f32⟩
  | .hbm, ⟨20, _⟩ => ⟨S320000x64, .f32⟩
  | .hbm, ⟨21, _⟩ => ⟨S_, .f32⟩
  | .hbm, ⟨22, _⟩ => ⟨S320000x64, .f32⟩
  | .hbm, ⟨23, _⟩ => ⟨S320000x64, .f32⟩
  | .hbm, ⟨24, _⟩ => ⟨S_, .i32⟩
  | .hbm, ⟨25, _⟩ => ⟨S2560000, .i32⟩
  | .hbm, ⟨26, _⟩ => ⟨S2560000, .i1⟩
  | .hbm, ⟨27, _⟩ => ⟨S_, .i32⟩
  | .hbm, ⟨28, _⟩ => ⟨S2560000, .i32⟩
  | .hbm, ⟨29, _⟩ => ⟨S2560000, .i32⟩
  | .hbm, ⟨30, _⟩ => ⟨S2560000, .i32⟩
  | .hbm, ⟨31, _⟩ => ⟨S2560000x1, .i32⟩
  | .hbm, ⟨32, _⟩ => ⟨S2560000x64, .f32⟩
  | .hbm, ⟨33, _⟩ => ⟨S_, .f32⟩
  | .hbm, ⟨34, _⟩ => ⟨S320000x64, .f32⟩
  | .hbm, ⟨35, _⟩ => ⟨S2560000x1, .i32⟩
  | .hbm, ⟨36, _⟩ => ⟨S320000x64, .f32⟩
  | .hbm, ⟨37, _⟩ => ⟨S320000x64, .f32⟩
  | .hbm, ⟨38, _⟩ => ⟨S320000x64, .f32⟩
  | .hbm, ⟨39, _⟩ => ⟨S_, .f32⟩
  | .hbm, ⟨40, _⟩ => ⟨S320000x64, .f32⟩
  | .hbm, ⟨41, _⟩ => ⟨S320000x64, .f32⟩
  | .hbm, ⟨42, _⟩ => ⟨S_, .i32⟩
  | .hbm, ⟨43, _⟩ => ⟨S2560000, .i32⟩
  | .hbm, ⟨44, _⟩ => ⟨S2560000, .i1⟩
  | .hbm, ⟨45, _⟩ => ⟨S_, .i32⟩
  | .hbm, ⟨46, _⟩ => ⟨S2560000, .i32⟩
  | .hbm, ⟨47, _⟩ => ⟨S2560000, .i32⟩
  | .hbm, ⟨48, _⟩ => ⟨S2560000, .i32⟩
  | .hbm, ⟨49, _⟩ => ⟨S2560000x1, .i32⟩
  | .hbm, ⟨50, _⟩ => ⟨S2560000x64, .f32⟩
  | .hbm, ⟨51, _⟩ => ⟨S_, .f32⟩
  | .hbm, ⟨52, _⟩ => ⟨S320000x64, .f32⟩
  | .hbm, ⟨53, _⟩ => ⟨S2560000x1, .i32⟩
  | .hbm, ⟨54, _⟩ => ⟨S320000x64, .f32⟩
  | .hbm, ⟨55, _⟩ => ⟨S320000x64, .f32⟩
  | .hbm, ⟨56, _⟩ => ⟨S320000x64, .f32⟩
  | .hbm, ⟨57, _⟩ => ⟨S_, .f32⟩
  | .hbm, ⟨58, _⟩ => ⟨S320000x64, .f32⟩
  | .hbm, ⟨59, _⟩ => ⟨S320000x64, .f32⟩
  | .hbm, ⟨60, _⟩ => ⟨S_, .i32⟩
  | .hbm, ⟨61, _⟩ => ⟨S2560000, .i32⟩
  | .hbm, ⟨62, _⟩ => ⟨S2560000, .i1⟩
  | .hbm, ⟨63, _⟩ => ⟨S_, .i32⟩
  | .hbm, ⟨64, _⟩ => ⟨S2560000, .i32⟩
  | .hbm, ⟨65, _⟩ => ⟨S2560000, .i32⟩
  | .hbm, ⟨66, _⟩ => ⟨S2560000, .i32⟩
  | .hbm, ⟨67, _⟩ => ⟨S2560000x1, .i32⟩
  | .hbm, ⟨68, _⟩ => ⟨S2560000x64, .f32⟩
  | .hbm, ⟨69, _⟩ => ⟨S_, .f32⟩
  | .hbm, ⟨70, _⟩ => ⟨S320000x64, .f32⟩
  | .hbm, ⟨71, _⟩ => ⟨S2560000x1, .i32⟩
  | .hbm, ⟨72, _⟩ => ⟨S320000x64, .f32⟩
  | .hbm, ⟨73, _⟩ => ⟨S320000x64, .f32⟩
  | .hbm, ⟨74, _⟩ => ⟨S320000x64, .f32⟩
  | .hbm, ⟨75, _⟩ => ⟨S_, .f32⟩
  | .hbm, ⟨76, _⟩ => ⟨S320000x64, .f32⟩
  | .hbm, ⟨77, _⟩ => ⟨S320000x64, .f32⟩
  | .hbm, ⟨78, _⟩ => ⟨S_, .f32⟩
  | .hbm, ⟨79, _⟩ => ⟨S10000x64, .f32⟩
  | .hbm, ⟨80, _⟩ => ⟨S320000x1, .i32⟩
  | .hbm, ⟨81, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_c_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call3_cst : Ref sig .tc := ⟨.hbm, 75, rfl⟩
abbrev main_call3_v0 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x64 : S_.BroadcastsInDim S320000x64 (![] : Fin 0 → Fin S320000x64.rank)
  bcast_S_S2560000 : S_.BroadcastsInDim S2560000 (![] : Fin 0 → Fin S2560000.rank)
  bcast_S2560000_S2560000x1_0 : S2560000.BroadcastsInDim S2560000x1 (![0] : Fin 1 → Fin S2560000x1.rank)
  bcast_S_S10000x64 : S_.BroadcastsInDim S10000x64 (![] : Fin 0 → Fin S10000x64.rank)
  gather_S10000x128_S320000x1_S320000x128_1_0_n_n_0_1_1128_wf : GatherDims.WF S10000x128 S320000x1 S320000x128 [1] [0] [] [0] [] 1 ![1, 128]
  dot_S320000x128_S128x64_S320000x64_1_0_0_1_n_n_wf : DotDims.WF S320000x128 S128x64 S320000x64 [1] [0] [0] [1] [] []
  dot_S320000x32_S32x64_S320000x64_1_0_0_1_n_n_wf : DotDims.WF S320000x32 S32x64 S320000x64 [1] [0] [0] [1] [] []
  gather_S320000x64_S2560000x1_S2560000x64_1_0_n_n_0_1_164_wf : GatherDims.WF S320000x64 S2560000x1 S2560000x64 [1] [0] [] [0] [] 1 ![1, 64]
  scatter_S320000x64_S2560000x1_S2560000x64_1_0_0_1_wf : ScatterDims.WF S320000x64 S2560000x1 S2560000x64 [1] [0] [0] 1
  dot_S320000x64_S64x64_S320000x64_1_0_0_1_n_n_wf : DotDims.WF S320000x64 S64x64 S320000x64 [1] [0] [0] [1] [] []
  scatter_S10000x64_S320000x1_S320000x64_1_0_0_1_wf : ScatterDims.WF S10000x64 S320000x1 S320000x64 [1] [0] [0] 1

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x64_S320000x64_1_0_0_1_n_n : DotDims S320000x128 S128x64 S320000x64 where
  lhsContracting := [1]
  rhsContracting := [0]
  lhsNonContracting := [0]
  rhsNonContracting := [1]
  lhsBatch := []
  rhsBatch := []
  wf := dot_S320000x128_S128x64_S320000x64_1_0_0_1_n_n_wf
def dot_S320000x32_S32x64_S320000x64_1_0_0_1_n_n : DotDims S320000x32 S32x64 S320000x64 where
  lhsContracting := [1]
  rhsContracting := [0]
  lhsNonContracting := [0]
  rhsNonContracting := [1]
  lhsBatch := []
  rhsBatch := []
  wf := dot_S320000x32_S32x64_S320000x64_1_0_0_1_n_n_wf
def gather_S320000x64_S2560000x1_S2560000x64_1_0_n_n_0_1_164 : GatherDims S320000x64 S2560000x1 S2560000x64 where
  offsetDims := [1]
  collapsedSliceDims := [0]
  operandBatchingDims := []
  startIndicesBatchingDims := []
  startIndexMap := [0]
  indexVectorDim := 1
  sliceSizes := ![1, 64]
  wf := gather_S320000x64_S2560000x1_S2560000x64_1_0_n_n_0_1_164_wf
def scatter_S320000x64_S2560000x1_S2560000x64_1_0_0_1 : ScatterDims S320000x64 S2560000x1 S2560000x64 where
  updateWindowDims := [1]
  insertedWindowDims := [0]
  scatterDimsToOperandDims := [0]
  indexVectorDim := 1
  wf := scatter_S320000x64_S2560000x1_S2560000x64_1_0_0_1_wf
def dot_S320000x64_S64x64_S320000x64_1_0_0_1_n_n : DotDims S320000x64 S64x64 S320000x64 where
  lhsContracting := [1]
  rhsContracting := [0]
  lhsNonContracting := [0]
  rhsNonContracting := [1]
  lhsBatch := []
  rhsBatch := []
  wf := dot_S320000x64_S64x64_S320000x64_1_0_0_1_n_n_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf

class Facts : Prop extends Facts₀ where

variable [Facts]
-- ==== Proof.LibRows.lean ====
/-
  Rows of a table, on the extended reals: the product of a table of rows with a weight matrix, a residual added to
  it, the positive part, and a table of rows gathered by a column of start indices.

  A row gather commutes with a product by a weight matrix on the right: entry (e, q) of either side is
  ∑ j, x (r e, j) · w (j, q), where r e is the row the e-th start index names. No law of the extended reals is needed
  for that beyond reading both sides at an index; it is the content of `gather_mm`.
-/
import Idealize.ShloMosaic.PureOps.Ideal
import Idealize.ShloMosaic.PureOps.Ideal.Laws
import Idealize.ShloMosaic.PureOps.ShapeOps
import Idealize.ShloMosaic.Lib.ValueIdx

noncomputable section

namespace Cert.Rows

open Idealize.ShloMosaic Idealize.ShloMosaic.ValueIdx

/-- The [n × o] array whose entry (r, q) is ∑ j, x (r, j) · w (j, q): the rows of `x` times the matrix `w`. -/
def mm {n k o : Nat} (x : FVec Ideal ⟨2, ![n, k]⟩ .f32) (w : FVec Ideal ⟨2, ![k, o]⟩ .f32) : FVec Ideal ⟨2, ![n, o]⟩ .f32 :=
  fun i => ∑ j : Fin k, x (ix2 ⟨(i 0).val, idx2_lt0 i⟩ j) * w (ix2 j ⟨(i 1).val, idx2_lt1 i⟩)

/-- A residual plus the rows of `x` times `w`, entry by entry. -/
def addmm {n k o : Nat} (b : FVec Ideal ⟨2, ![n, o]⟩ .f32) (x : FVec Ideal ⟨2, ![n, k]⟩ .f32) (w : FVec Ideal ⟨2, ![k, o]⟩ .f32) :
    FVec Ideal ⟨2, ![n, o]⟩ .f32 :=
  fun i => b i + mm x w i

/-- The positive part, entry by entry: the maximum with the zero word's value. -/
def relu {s : Shape} (x : FVec Ideal s .f32) : FVec Ideal s .f32 :=
  fun i => max (x i) (Ideal.ofBits .f32 0x00000000#32)

/-- Every word of an index array, read signed, names one of `N` rows. -/
def InRange (N : Nat) {s : Shape} (i : IVec s 32) : Prop := ∀ e, 0 ≤ (i e).toInt ∧ (i e).toInt < (N : Int)

/-- The row a start index names: the word read signed and clamped into the table's `N` rows. -/
def clampRow (N : Nat) (hN : 0 < N) {w : Nat} (v : BitVec w) : Fin N := ⟨min v.toInt.toNat (N - 1), by omega⟩

/-- A row gather read at an index. The gather that takes whole rows of an [N × C] table at an [n × 1] column of start
    indices (offset axis 1, operand axis 0 collapsed and start-indexed, the index vector on axis 1, slices [1, C]) has at
    (e, q) the table's entry (r, q), r the e-th start index read signed and clamped into the rows. -/
theorem gather_rows {α : Type} {N C n w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : (⟨2, ![n, C]⟩ : Shape).Idx) :
    Host.gather d x idx j
      = x (ix2 (clampRow N hN (idx (ix2 ⟨(j 0).val, idx2_lt0 j⟩ (0 : Fin 1)))) ⟨(j 1).val, idx2_lt1 j⟩) := by
  -- what the dimension numbers say of each axis list
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := d.slice_collapsed 0 (by rw [hcoll]; exact List.mem_singleton.mpr rfl)
  -- the one offset axis of the result is axis 1, its one batch axis is axis 0
  have hoffm : ∀ X : Fin 2, X ∈ d.offsetDims → X = 1 := fun X h => by rw [hoff] at h; exact List.mem_singleton.mp h
  have hbdm : ∀ X : Fin 2, X ∈ d.batchDims → X = 0 := fun X h => by
    have h2 : X ∉ d.offsetDims := by simpa [GatherDims.batchDims, Shape.kept] using h
    rw [hoff] at h2
    have h3 : X.val ≠ 1 := fun e => h2 (List.mem_singleton.mpr (Fin.ext e))
    have h4 := X.isLt
    exact Fin.ext (by simp only [Fin.val_zero]; omega)
  -- a coordinate of the result index read at an axis known to be 0, resp. 1
  have e0 : ∀ X : Fin 2, X = 0 → (j X).val = (j 0).val := fun X h => by subst h; rfl
  have e1 : ∀ X : Fin 2, X = 1 → (j X).val = (j 1).val := fun X h => by subst h; rfl
  -- the start-indices index at which the row's one start index is read
  have hsi : d.siIdx j ⟨d.startIndexMap.idxOf 0, List.idxOf_lt_length_iff.2 hm0⟩ = ix2 ⟨(j 0).val, idx2_lt0 j⟩ (0 : Fin 1) := by
    funext b
    apply Fin.ext
    match b with
    | ⟨0, _⟩ =>
      unfold GatherDims.siIdx
      rw [dif_neg (by rw [hivd]; simp)]
      unfold GatherDims.siCoord
      simp only [Fin.val_cast]
      exact e0 _ (hbdm _ (List.getElem_mem _))
    | ⟨1, _⟩ =>
      unfold GatherDims.siIdx
      rw [dif_pos (by rw [hivd])]
      show List.idxOf (0 : Fin 2) d.startIndexMap = 0
      rw [hsim]; simp
  unfold Host.gather
  congr 1
  funext a
  apply Fin.ext
  match a with
  | ⟨0, _⟩ =>
    -- the collapsed, start-indexed axis: the clamped start, no batching and no offset coordinate
    show d.start j idx 0 + d.batchCoord j 0 + d.offCoord j 0 = min (idx (ix2 ⟨(j 0).val, idx2_lt0 j⟩ (0 : Fin 1))).toInt.toNat (N - 1)
    rw [d.batchCoord_eq_zero j 0 (hb 0), d.offCoord_eq_zero j 0 hk0]
    simp only [Nat.add_zero]
    unfold GatherDims.start
    rw [dif_pos hm0, hsi, hsl]
    rfl
  | ⟨1, _⟩ =>
    -- the offset axis: start 0 (not start-indexed), no batching, the offset coordinate is the result's column
    show d.start j idx 1 + d.batchCoord j 1 + d.offCoord j 1 = (j 1).val
    rw [d.batchCoord_eq_zero j 1 (hb 1), Nat.add_zero]
    unfold GatherDims.start GatherDims.offCoord
    rw [dif_neg hm1, dif_pos hk1, Nat.zero_add]
    exact e1 _ (hoffm _ (List.getElem_mem _))

/-- A row gather commutes with a product by a weight matrix on the right. -/
theorem gather_mm {N K O n w : Nat} (hN : 0 < N)
    (dK : GatherDims ⟨2, ![N, K]⟩ ⟨2, ![n, 1]⟩ ⟨2, ![n, K]⟩) (dO : GatherDims ⟨2, ![N, O]⟩ ⟨2, ![n, 1]⟩ ⟨2, ![n, O]⟩)
    (hK : dK.offsetDims = [1] ∧ dK.collapsedSliceDims = [0] ∧ dK.operandBatchingDims = [] ∧ dK.startIndexMap = [0] ∧ dK.indexVectorDim = 1)
    (hO : dO.offsetDims = [1] ∧ dO.collapsedSliceDims = [0] ∧ dO.operandBatchingDims = [] ∧ dO.startIndexMap = [0] ∧ dO.indexVectorDim = 1)
    (x : FVec Ideal ⟨2, ![N, K]⟩ .f32) (wt : FVec Ideal ⟨2, ![K, O]⟩ .f32) (idx : IVec ⟨2, ![n, 1]⟩ w) :
    Host.gather dO (mm x wt) idx = mm (Host.gather dK x idx) wt := by
  funext j
  rw [gather_rows hN dO hO.1 hO.2.1 hO.2.2.1 hO.2.2.2.1 hO.2.2.2.2]
  unfold mm
  refine Finset.sum_congr rfl fun k _ => ?_
  rw [gather_rows hN dK hK.1 hK.2.1 hK.2.2.1 hK.2.2.2.1 hK.2.2.2.2]
  rfl

end Cert.Rows

end
-- ==== Proof.PreRange.lean ====
/-
  What the precondition says of the two lookup index arrays: beside the finiteness of the float inputs it holds the
  conjunction, over all entries, of 0 ≤ n2e_src < 10000 and, over all entries, of 0 ≤ e2e_src < 320000, each compare a
  signed one. Read entry by entry, every node index names one of the 10000 node rows and every message index one of the
  320000 message rows.
-/
import proofs.«407001_j54528904790123_3_alg».proof.Pre_finite_inputs
import proofs.«407001_j54528904790123_3_alg».proof.Proof.Gen.Pre_finite_inputs
import proofs.«407001_j54528904790123_3_alg».proof.Proof.LibRows
import Idealize.ShloMosaic.Lib.ReduceAll
import Idealize.ShloMosaic.Lib.StableHlo.Predicate
import Idealize.ShloMosaic.Lib.ValueIdx

set_option maxRecDepth 16384

noncomputable section

namespace Cert.PreRange

open Idealize.ShloMosaic Idealize.ShloMosaic.ValueIdx
open Cert.Pre_finite_inputs

/-- The scalar shape has one index. -/
local instance : Subsingleton S_.Idx := ⟨fun a b => funext fun d => d.elim0⟩

variable {F : FTy → Type} [FloatOps F] [Cert.Pre_finite_inputs.Facts]

/-- One entry of a range test. Where the word of (a ≥ 0) and (a < N), both compares signed and both constants scalars
    laid over the array, is one at entry `e`, the entry's signed value lies in 0 … N − 1. A scalar laid over an array reads
    as itself at every entry, and a constant below 2³¹ reads signed as its value. -/
private theorem word_range {s : Shape} (hb : S_.BroadcastsInDim s (![] : Fin 0 → Fin s.rank)) (a : IVec s 32) (N : Nat)
    (hN : N < 2 ^ 31) (e : s.Idx)
    (he : andi (cmpi .sge a (broadcastInDim s ![] hb (constantI S_ 32 0#32)))
      (cmpi .slt a (broadcastInDim s ![] hb (constantI S_ 32 (BitVec.ofNat 32 N)))) e = 1#1) :
    0 ≤ (a e).toInt ∧ (a e).toInt < (N : Int) := by
  obtain ⟨hge, hlt⟩ := IntOp.andi_eq_one.1 he
  have hge' : (0#32 : BitVec 32).toInt ≤ (a e).toInt := IntOp.cmpi_sge.1 hge
  have hlt' : (a e).toInt < (BitVec.ofNat 32 N).toInt := IntOp.cmpi_slt.1 hlt
  rw [StableHlo.Predicate.toInt_ofNat_small N hN] at hlt'
  rw [show (0#32 : BitVec 32).toInt = 0 from by decide] at hge'
  exact ⟨hge', hlt'⟩

/-- The precondition, all ones, puts both lookup index arrays in range of the rows they index. -/
theorem range_of_fn (a0 : FVec F S10000x128 .f32) (a1 : FVec F S320000x32 .f32) (a2 : FVec F S128x64 .f32)
    (a3 : FVec F S32x64 .f32) (a4 : FVec F S64x64 .f32) (a5 : IVec S320000 32) (a6 a7 : IVec S2560000 32) (a8 : IVec S320000 32)
    (h : Cert.Pre_finite_inputs.fn (F := F) a0 a1 a2 a3 a4 a5 a6 a7 a8 = fun _ => 1#1) :
    Cert.Rows.InRange 10000 a5 ∧ Cert.Rows.InRange 320000 a6 := by
  -- the predicate's one word, at the scalar's only index
  have h0 := congrFun h ValueIdx.ix0
  unfold Cert.Pre_finite_inputs.fn Cert.Pre_finite_inputs.fn_part1 Cert.Pre_finite_inputs.fn_part2 at h0
  dsimp only at h0
  -- the last two conjuncts of the chain of ands are the two range tests; the finiteness ones before them are not needed
  obtain ⟨h30, hB⟩ := IntOp.andi_eq_one.1 h0
  obtain ⟨_, hA⟩ := IntOp.andi_eq_one.1 h30
  -- a conjunction over all entries that is one is one at each entry
  exact ⟨fun e => word_range _ a5 10000 (by norm_num) e (Host.reduce_andi_all _ _ _ _ _ hA e),
    fun e => word_range _ a6 320000 (by norm_num) e (Host.reduce_andi_all _ _ _ _ _ hB e)⟩

end Cert.PreRange

end
-- ==== Proof.TakeDefs.lean ====
/-
  The kernel's two row lookups. Each is jnp's take along axis 0: a negative index is first wrapped by the row count, the
  rows are gathered at the wrapped indices, and a row whose wrapped index is outside the table is overwritten by the NaN
  word. Where every index names a row of the table the overwrite never happens, and the lookup is the plain row gather
  at the wrapped indices.
-/
import proofs.«407001_j54528904790123_3_alg».proof.Proof.Gen.KernelIdeal.Launch
import proofs.«407001_j54528904790123_3_alg».proof.Proof.LibRows
import Idealize.ShloMosaic.Lib.StableHlo.Run
import Idealize.ShloMosaic.PureOps.Ideal

set_option maxRecDepth 16384

noncomputable section

namespace Cert.KernelIdeal.Take

open Cert.KernelIdeal Cert.KernelIdeal.Gen
open Idealize.ShloMosaic Idealize.ShloMosaic.TcCoe Idealize.SL.Sem Idealize.ShloMosaic.StableHlo

/-! ## The lookup into the 10000 projected node rows -/

/-- The start indices of the node lookup as a column: a negative word wrapped by 10000, then laid as [320000 × 1]. -/
def startCol0 (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

/-- Per looked-up row: is its wrapped index one of the rows 0 … 9999? -/
def inTable0 (i : IVec S320000 32) : IVec S320000 1 :=
  Host.reduce IntOp.andi
    (andi (cmpi .sge (startCol0 i) (broadcastInDim S320000x1 ![] bcast_S_S320000x1 (constantI S_ 32 0#32)))
      (cmpi .sle (startCol0 i) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The node lookup: rows gathered at the wrapped indices, a row outside the table overwritten by the NaN word. -/
def take0 (x : FVec Ideal S10000x64 .f32) (i : IVec S320000 32) : FVec Ideal S320000x64 .f32 :=
  select (broadcastInDim S320000x64 ![0] bcast_S320000_S320000x64_0 (inTable0 i))
    (Host.gather gather_S10000x64_S320000x1_S320000x64_1_0_n_n_0_1_164 x (startCol0 i))
    (broadcastInDim S320000x64 ![] bcast_S_S320000x64 (constant S_ .f32 0x7FC00000#32))

/-! ## The lookup into the 320000 message rows -/

/-- The start indices of the message lookup as a column: a negative word wrapped by 320000, laid as [2560000 × 1]. -/
def startCol1 (i : IVec S2560000 32) : IVec S2560000x1 32 :=
  broadcastInDim S2560000x1 ![0] bcast_S2560000_S2560000x1_0
    (select (cmpi .slt i (broadcastInDim S2560000 ![] bcast_S_S2560000 (constantI S_ 32 0#32)))
      (addi i (broadcastInDim S2560000 ![] bcast_S_S2560000 (constantI S_ 32 320000#32))) i)

/-- Per looked-up row: is its wrapped index one of the rows 0 … 319999? -/
def inTable1 (i : IVec S2560000 32) : IVec S2560000 1 :=
  Host.reduce IntOp.andi
    (andi (cmpi .sge (startCol1 i) (broadcastInDim S2560000x1 ![] bcast_S_S2560000x1 (constantI S_ 32 0#32)))
      (cmpi .sle (startCol1 i) (broadcastInDim S2560000x1 ![0, 1] bcast_S1x1_S2560000x1_0_1
        (broadcastInDim S1x1 ![1] bcast_S1_S1x1_1 (constantI S1 32 319999#32)))))
    (constantI S_ 1 1#1) reducesTo_S2560000x1_S2560000_d1 h_S_

/-- The message lookup: rows gathered at the wrapped indices, a row outside the table overwritten by the NaN word. -/
def take1 (x : FVec Ideal S320000x64 .f32) (i : IVec S2560000 32) : FVec Ideal S2560000x64 .f32 :=
  select (broadcastInDim S2560000x64 ![0] bcast_S2560000_S2560000x64_0 (inTable1 i))
    (Host.gather gather_S320000x64_S2560000x1_S2560000x64_1_0_n_n_0_1_164 x (startCol1 i))
    (broadcastInDim S2560000x64 ![] bcast_S_S2560000x64 (constant S_ .f32 0x7FC00000#32))

/-! ## The segment sums -/

/-- A segment sum of 2560000 rows into 320000, by the destination indices. -/
def segsum1 (u : FVec Ideal S2560000x64 .f32) (i : IVec S2560000 32) : FVec Ideal S320000x64 .f32 :=
  Host.scatterAdd scatter_S320000x64_S2560000x1_S2560000x64_1_0_0_1
    (broadcastInDim S320000x64 ![] bcast_S_S320000x64 (constant S_ .f32 0x00000000#32))
    (broadcastInDim S2560000x1 ![0] bcast_S2560000_S2560000x1_0 i) u

/-- The final segment sum of 320000 rows into 10000, by the destination indices. -/
def segsum0 (u : FVec Ideal S320000x64 .f32) (i : IVec S320000 32) : FVec Ideal S10000x64 .f32 :=
  Host.scatterAdd scatter_S10000x64_S320000x1_S320000x64_1_0_0_1
    (broadcastInDim S10000x64 ![] bcast_S_S10000x64 (constant S_ .f32 0x00000000#32))
    (broadcastInDim S320000x1 ![0] bcast_S320000_S320000x1_0 i) u

end Cert.KernelIdeal.Take

end
-- ==== Proof.TakeStretch.lean ====
/-
  The host stretches of the kernel's program between its regions, each read as one function of the buffers it reads:
  the node lookup, the three message lookups, the three aggregations and the final reduction.
-/
import proofs.«407001_j54528904790123_3_alg».proof.Proof.TakeDefs
import Idealize.ShloMosaic.Lib.StableHlo.Run

set_option maxRecDepth 16384

noncomputable section

namespace Cert.KernelIdeal.Take

open Cert.KernelIdeal Cert.KernelIdeal.Gen
open Idealize.ShloMosaic Idealize.ShloMosaic.TcCoe Idealize.SL.Sem Idealize.ShloMosaic.StableHlo

/-! ## A called function's operations carry their values through the identity change of type between a buffer's
    contents and the value's type; both directions cancel, and at a reference's own type either is the identity -/

theorem ofBuf_toBuf {T : BufTy} (x : TRef sig T) (v : T.Contents (Elt Ideal)) : x.ofBuf (x.toBuf v) = v := by
  obtain ⟨r, h, h2, h3⟩ := x
  subst h
  rfl

theorem toBuf_self (r : Ref sig .tc) (h1 : r.ty = r.ty) (h2 : r.space ≠ .host) (h3 : r.isScoped = false)
    (v : r.ty.Contents (Elt Ideal)) : (TRef.of r h1 h2 h3 : TRef sig r.ty).toBuf v = v := rfl

/-! ## The lookups -/

set_option maxHeartbeats 8000000 in
/-- The first host stretch computes the node lookup of the projected rows at the node indices. -/
theorem stretch1 (Vv : Valuation τ sig (Elt Ideal)) :
    StableHlo.after (hostOps1 (F := Ideal)) Vv (Proc.devRef .tc main_v1)
      = take0 (Vv (Proc.devRef .tc main_v0)) (Vv (Proc.devRef .tc main_arg5)) := by
  after_results_simp
  simp only [ofBuf_toBuf]
  have ei : ((TRef.of main_arg5 : TRef sig ⟨S320000, .i32⟩).ofBuf (Vv (Proc.devRef .tc main_arg5)) : IVec S320000 32) = Vv (Proc.devRef .tc main_arg5) := rfl
  have ex : ((TRef.of main_v0 : TRef sig ⟨S10000x64, .f32⟩).ofBuf (Vv (Proc.devRef .tc main_v0)) : FVec Ideal S10000x64 .f32) = Vv (Proc.devRef .tc main_v0) := rfl
  rw [ei, ex]
  unfold take0 inTable0 startCol0
  exact toBuf_self main_v1 _ _ _ _

set_option maxHeartbeats 8000000 in
/-- The three message-lookup stretches, each from the message table of its step. -/
theorem stretch2 (Vv : Valuation τ sig (Elt Ideal)) :
    StableHlo.after (hostOps2 (F := Ideal)) Vv (Proc.devRef .tc main_v3)
      = take1 (Vv (Proc.devRef .tc main_v2_1)) (Vv (Proc.devRef .tc main_arg6)) := by
  after_results_simp
  simp only [ofBuf_toBuf]
  have ei : ((TRef.of main_arg6 : TRef sig ⟨S2560000, .i32⟩).ofBuf (Vv (Proc.devRef .tc main_arg6)) : IVec S2560000 32) = Vv (Proc.devRef .tc main_arg6) := rfl
  have ex : ((TRef.of main_v2_1 : TRef sig ⟨S320000x64, .f32⟩).ofBuf (Vv (Proc.devRef .tc main_v2_1)) : FVec Ideal S320000x64 .f32) = Vv (Proc.devRef .tc main_v2_1) := rfl
  rw [ei, ex]
  unfold take1 inTable1 startCol1
  exact toBuf_self main_v3 _ _ _ _
set_option maxHeartbeats 8000000 in
theorem stretch3 (Vv : Valuation τ sig (Elt Ideal)) :
    StableHlo.after (hostOps3 (F := Ideal)) Vv (Proc.devRef .tc main_v8)
      = take1 (Vv (Proc.devRef .tc main_v7)) (Vv (Proc.devRef .tc main_arg6)) := by
  after_results_simp
  simp only [ofBuf_toBuf]
  have ei : ((TRef.of main_arg6 : TRef sig ⟨S2560000, .i32⟩).ofBuf (Vv (Proc.devRef .tc main_arg6)) : IVec S2560000 32) = Vv (Proc.devRef .tc main_arg6) := rfl
  have ex : ((TRef.of main_v7 : TRef sig ⟨S320000x64, .f32⟩).ofBuf (Vv (Proc.devRef .tc main_v7)) : FVec Ideal S320000x64 .f32) = Vv (Proc.devRef .tc main_v7) := rfl
  rw [ei, ex]
  unfold take1 inTable1 startCol1
  exact toBuf_self main_v8 _ _ _ _
set_option maxHeartbeats 8000000 in
theorem stretch4 (Vv : Valuation τ sig (Elt Ideal)) :
    StableHlo.after (hostOps4 (F := Ideal)) Vv (Proc.devRef .tc main_v13)
      = take1 (Vv (Proc.devRef .tc main_v12)) (Vv (Proc.devRef .tc main_arg6)) := by
  after_results_simp
  simp only [ofBuf_toBuf]
  have ei : ((TRef.of main_arg6 : TRef sig ⟨S2560000, .i32⟩).ofBuf (Vv (Proc.devRef .tc main_arg6)) : IVec S2560000 32) = Vv (Proc.devRef .tc main_arg6) := rfl
  have ex : ((TRef.of main_v12 : TRef sig ⟨S320000x64, .f32⟩).ofBuf (Vv (Proc.devRef .tc main_v12)) : FVec Ideal S320000x64 .f32) = Vv (Proc.devRef .tc main_v12) := rfl
  rw [ei, ex]
  unfold take1 inTable1 startCol1
  exact toBuf_self main_v13 _ _ _ _

/-! ## The aggregations and the final reduction -/

theorem stretch2_1 (Vv : Valuation τ sig (Elt Ideal)) :
    StableHlo.after (hostOps2_1 (F := Ideal)) Vv (Proc.devRef .tc main_v6)
      = segsum1 (Vv (Proc.devRef .tc main_v3)) (Vv (Proc.devRef .tc main_arg7)) := by
  after_results
  rfl
theorem stretch3_1 (Vv : Valuation τ sig (Elt Ideal)) :
    StableHlo.after (hostOps3_1 (F := Ideal)) Vv (Proc.devRef .tc main_v11)
      = segsum1 (Vv (Proc.devRef .tc main_v8)) (Vv (Proc.devRef .tc main_arg7)) := by
  after_results
  rfl
theorem stretch4_1 (Vv : Valuation τ sig (Elt Ideal)) :
    StableHlo.after (hostOps4_1 (F := Ideal)) Vv (Proc.devRef .tc main_v16)
      = segsum1 (Vv (Proc.devRef .tc main_v13)) (Vv (Proc.devRef .tc main_arg7)) := by
  after_results
  rfl
theorem stretch5 (Vv : Valuation τ sig (Elt Ideal)) :
    StableHlo.after (hostOps5 (F := Ideal)) Vv (Proc.devRef .tc main_v20)
      = segsum0 (Vv (Proc.devRef .tc main_v17)) (Vv (Proc.devRef .tc main_arg8)) := by
  after_results
  rfl

end Cert.KernelIdeal.Take

end
-- ==== Proof.TakeInRange.lean ====
/-
  Where every index names a row of the table, a lookup overwrites no row: the range test of every wrapped index is
  true, so the select keeps every gathered row.
-/
import proofs.«407001_j54528904790123_3_alg».proof.Proof.TakeDefs
import Idealize.ShloMosaic.Lib.ReduceAll
import Idealize.ShloMosaic.Lib.StableHlo.Predicate
import Idealize.ShloMosaic.Lib.ValueIdx

set_option maxRecDepth 16384

noncomputable section

namespace Cert.KernelIdeal.Take

open Cert.KernelIdeal Cert.KernelIdeal.Gen
open Idealize.ShloMosaic Idealize.ShloMosaic.TcCoe Idealize.SL.Sem Idealize.ShloMosaic.StableHlo

/-! ## A conjunction of ones, and a word that is not wrapped -/

/-- A left fold by `and`, started at one, over words that are all one, is one. -/
private theorem foldl_andi_ones {ι : Type} (f : ι → BitVec 1) (hf : ∀ n, f n = 1#1) :
    ∀ l : List ι, l.foldl (fun r n => IntOp.andi r (f n)) 1#1 = 1#1
  | [] => rfl
  | a :: l => by
    have ha : IntOp.andi 1#1 (f a) = 1#1 := by rw [hf a]; decide
    rw [List.foldl_cons, ha]
    exact foldl_andi_ones f hf l

/-- A reduction by `and`, from the constant one, of an array of ones is one at every result index: it is the left fold
    over the entries that reduce into that index. -/
private theorem reduce_andi_ones {s t : Shape} {axes : List (Fin s.rank)} (x : s.Idx → BitVec 1) (hx : ∀ n, x n = 1#1)
    (hr : s.ReducesTo axes t) (hu : 0 < S_.numel) (k : t.Idx) :
    Host.reduce IntOp.andi x (constantI S_ 1 1#1) hr hu k = 1#1 := by
  rw [Host.reduce_eq_foldl]
  exact foldl_andi_ones x hx _

/-- A word that reads non-negative is kept by the wrap: the test "below zero" fails, so the select takes the word
    itself and not the word plus the row count. -/
private theorem wrap_keep (w c : BitVec 32) (hw : 0 ≤ w.toInt) :
    Scalar.select (IntOp.cmpi .slt w 0#32) (IntOp.addi w c) w = w := by
  have hc : IntOp.cmpi .slt w 0#32 = 0#1 := ValueIdx.eq_zero_of_ne_one fun h1 => by
    have hlt := IntOp.cmpi_slt.1 h1
    rw [show (0#32 : BitVec 32).toInt = 0 from by decide] at hlt
    omega
  rw [hc, ValueIdx.select_zero]

/-! ## The node lookup -/

/-- Every entry of the wrapped column is an entry of the index array itself, when those are non-negative. -/
private theorem startCol0_eq (i : IVec S320000 32) (h : Cert.Rows.InRange 10000 i) (n : S320000x1.Idx) :
    ∃ k, startCol0 i n = i k := by
  unfold startCol0 broadcastInDim
  exact ⟨_, wrap_keep _ _ (h _).1⟩

/-- With every node index in range, the range test of every looked-up row is true. -/
private theorem inTable0_one (i : IVec S320000 32) (h : Cert.Rows.InRange 10000 i) (k : S320000.Idx) :
    inTable0 i k = 1#1 := by
  unfold inTable0
  refine reduce_andi_ones _ (fun n => ?_) _ _ k
  obtain ⟨m, hm⟩ := startCol0_eq i h n
  refine IntOp.andi_eq_one.2 ⟨IntOp.cmpi_sge.2 ?_, IntOp.cmpi_sle.2 ?_⟩
  · show (0#32 : BitVec 32).toInt ≤ (startCol0 i n).toInt
    rw [hm, show (0#32 : BitVec 32).toInt = 0 from by decide]
    exact (h m).1
  · show (startCol0 i n).toInt ≤ (9999#32 : BitVec 32).toInt
    rw [hm, show (9999#32 : BitVec 32).toInt = 9999 from by decide]
    have := (h m).2
    omega

/-- With every node index in 0 … 9999 no row is overwritten: the lookup is the row gather at the wrapped indices. -/
theorem take0_eq_gather (x : FVec Ideal S10000x64 .f32) (i : IVec S320000 32) (h : Cert.Rows.InRange 10000 i) :
    take0 x i = Host.gather gather_S10000x64_S320000x1_S320000x64_1_0_n_n_0_1_164 x (startCol0 i) := by
  funext j
  unfold take0
  rw [ValueIdx.select_apply]
  -- the row's range test, laid along the row, is one: the select keeps the gathered entry
  have hin : broadcastInDim S320000x64 ![0] bcast_S320000_S320000x64_0 (inTable0 i) j = 1#1 := inTable0_one i h _
  rw [hin, ValueIdx.select_one]

/-! ## The message lookup -/

/-- Every entry of the wrapped column is an entry of the index array itself, when those are non-negative. -/
private theorem startCol1_eq (i : IVec S2560000 32) (h : Cert.Rows.InRange 320000 i) (n : S2560000x1.Idx) :
    ∃ k, startCol1 i n = i k := by
  unfold startCol1 broadcastInDim
  exact ⟨_, wrap_keep _ _ (h _).1⟩

/-- With every message index in range, the range test of every looked-up row is true. -/
private theorem inTable1_one (i : IVec S2560000 32) (h : Cert.Rows.InRange 320000 i) (k : S2560000.Idx) :
    inTable1 i k = 1#1 := by
  unfold inTable1
  refine reduce_andi_ones _ (fun n => ?_) _ _ k
  obtain ⟨m, hm⟩ := startCol1_eq i h n
  refine IntOp.andi_eq_one.2 ⟨IntOp.cmpi_sge.2 ?_, IntOp.cmpi_sle.2 ?_⟩
  · show (0#32 : BitVec 32).toInt ≤ (startCol1 i n).toInt
    rw [hm, show (0#32 : BitVec 32).toInt = 0 from by decide]
    exact (h m).1
  · show (startCol1 i n).toInt ≤ (319999#32 : BitVec 32).toInt
    rw [hm, show (319999#32 : BitVec 32).toInt = 319999 from by decide]
    have := (h m).2
    omega

/-- With every message index in 0 … 319999 no row is overwritten. -/
theorem take1_eq_gather (x : FVec Ideal S320000x64 .f32) (i : IVec S2560000 32) (h : Cert.Rows.InRange 320000 i) :
    take1 x i = Host.gather gather_S320000x64_S2560000x1_S2560000x64_1_0_n_n_0_1_164 x (startCol1 i) := by
  funext j
  unfold take1
  rw [ValueIdx.select_apply]
  -- the row's range test, laid along the row, is one: the select keeps the gathered entry
  have hin : broadcastInDim S2560000x64 ![0] bcast_S2560000_S2560000x64_0 (inTable1 i) j = 1#1 := inTable1_one i h _
  rw [hin, ValueIdx.select_one]

end Cert.KernelIdeal.Take

end
-- ==== Proof.RegionProj.lean ====
/-
  The node projection as a whole array. The first region runs over two blocks of 5000 node rows; block t of its output
  is the 5000 × 128 block t of the node features times the whole 128 × 64 weight (a product into a zero accumulator, the
  change of float format being the identity on the extended reals). The two blocks tile the 10000 rows, so after the
  region the output array holds, at (r, q), ∑ j, node_feat (r, j) · W (j, q).
-/
import proofs.«407001_j54528904790123_3_alg».proof.Proof.Gen.KernelIdeal.Frame
import proofs.«407001_j54528904790123_3_alg».proof.Proof.LibRows
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.RegionProj

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The product's operand indices, axis by axis -/

theorem hz : (![0, 0] : Fin 2 → Nat) = fun _ => 0 := funext fun a => by fin_cases a <;> rfl

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's payload at (p, q): the change of format is the identity and the accumulator is zero, so it is the
    plain sum ∑ k, x (p, k) · w (k, q) over the 128 contracted columns. -/
theorem pay_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-! ## Where the blocks sit -/

/-- The block indices over the two grid points: the node features' block and the output's block are both row block t of
    column block 0, the weight's block is always (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is row block t of the product of the node features with the weight. -/
theorem flushed_eq (c : Dev nD) (t : Fin cfg0.N) :
    (dat0 (F := Ideal) V c).flushed 2 t
      = ((cfg0.win 2).blk t).view.read (Elt Ideal) (Cert.Rows.mm (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk0 V c 0 t) (iblk0 V c 1 t) p q).trans ?_
  show _ = Cert.Rows.mm (V c main_arg0) (V c main_arg2) (((cfg0.win 2).blk t).view.emb (ix2 p q))
  unfold Cert.Rows.mm
  refine Finset.sum_congr rfl fun k _ => ?_
  have h0 : ((cfg0.win 0).blk t).view.emb (ix2 p k)
      = ix2 ⟨((((cfg0.win 2).blk t).view.emb (ix2 p q)) 0).val, idx2_lt0 _⟩ k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q)
      = ix2 k ⟨((((cfg0.win 2).blk t).view.emb (ix2 p q)) 1).val, idx2_lt1 _⟩ := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  exact congrArg₂ (fun a b : Ideal .f32 => a * b) (congrArg (V c main_arg0) h0) (congrArg (V c main_arg2) h1)

/-- An index of the output array is in point t's block iff each coordinate is in the block's range on its axis. -/
theorem mem_blk (t : Fin cfg0.N) (i : S10000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The two row blocks tile the 10000 rows: row r is in the block of point r / 5000. -/
theorem cover (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  let t : Fin cfg0.N := ⟨(i 0).val / 5000, by show (i 0).val / 5000 < 2; omega⟩
  have ht : t.val = (i 0).val / 5000 := rfl
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the projection region its output array is the node features' rows times the weight. -/
theorem final (c : Dev nD) :
    (dat0 (F := Ideal) V c).arrAt 2 cfg0.N = Cert.Rows.mm (V c main_arg0) (V c main_arg2) :=
  (dat0 (F := Ideal) V c).arrAt_eq_of_cover 2 (Cert.Rows.mm (V c main_arg0) (V c main_arg2))
    (fun t _ => flushed_eq V c t) cover

end Cert.KernelIdeal.RegionProj

end
-- ==== Proof.RegionInput.lean ====
/-
  The input message and its positive part as whole arrays. The second region runs over fifty blocks of 6400 message rows;
  at block t it adds, to block t of the gathered projection, block t of the edge features times the whole 32 × 64 weight,
  stores that as the input message and its maximum with zero as the first message. The fifty blocks tile the 320000 rows.
-/
import proofs.«407001_j54528904790123_3_alg».proof.Proof.Gen.KernelIdeal.Frame
import proofs.«407001_j54528904790123_3_alg».proof.Proof.LibRows
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.RegionInput

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The product's operand indices, axis by axis -/

theorem hz : (![0, 0] : Fin 2 → Nat) = fun _ => 0 := funext fun a => by fin_cases a <;> rfl

theorem lhs_0 (i : S6400x64.Idx) (q : dot_S6400x32_S32x64_S6400x64_1_0_0_1_n_n.contr.Idx) :
    (dot_S6400x32_S32x64_S6400x64_1_0_0_1_n_n.lhsIdx i q 0).val = (i 0).val := by
  unfold DotDims.lhsIdx
  rw [dif_neg (show ¬(0 : Fin S6400x32.rank) ∈ dot_S6400x32_S32x64_S6400x64_1_0_0_1_n_n.lhsBatch by decide), dif_pos (show (0 : Fin S6400x32.rank) ∈ dot_S6400x32_S32x64_S6400x64_1_0_0_1_n_n.lhsNonContracting by decide)]
  rfl
theorem lhs_1 (i : S6400x64.Idx) (q : dot_S6400x32_S32x64_S6400x64_1_0_0_1_n_n.contr.Idx) :
    (dot_S6400x32_S32x64_S6400x64_1_0_0_1_n_n.lhsIdx i q 1).val = (q ⟨0, by decide⟩).val :=
  dot_S6400x32_S32x64_S6400x64_1_0_0_1_n_n.lhsIdx_val_of_single rfl i q
theorem rhs_0 (i : S6400x64.Idx) (q : dot_S6400x32_S32x64_S6400x64_1_0_0_1_n_n.contr.Idx) :
    (dot_S6400x32_S32x64_S6400x64_1_0_0_1_n_n.rhsIdx i q 0).val = (q ⟨0, by decide⟩).val :=
  dot_S6400x32_S32x64_S6400x64_1_0_0_1_n_n.rhsIdx_val_of_single rfl i q
theorem rhs_1 (i : S6400x64.Idx) (q : dot_S6400x32_S32x64_S6400x64_1_0_0_1_n_n.contr.Idx) :
    (dot_S6400x32_S32x64_S6400x64_1_0_0_1_n_n.rhsIdx i q 1).val = (i 1).val := by
  unfold DotDims.rhsIdx
  rw [dif_neg (show ¬(1 : Fin S32x64.rank) ∈ dot_S6400x32_S32x64_S6400x64_1_0_0_1_n_n.rhsBatch by decide), dif_pos (show (1 : Fin S32x64.rank) ∈ dot_S6400x32_S32x64_S6400x64_1_0_0_1_n_n.rhsNonContracting by decide)]
  rfl

/-- The first payload at (p, q): the cast to the same shape and the change of format are the identity and the
    accumulator is zero, so it is b (p, q) + ∑ k, x (p, k) · w (k, q) over the 32 contracted columns. -/
theorem pay1_apply (x0 : Vec Ideal S6400x64 .f32) (x1 : Vec Ideal S6400x32 .f32) (x2 : Vec Ideal S32x64 .f32)
    (p : Fin 6400) (q : Fin 64) :
    k1_pay1 (F := Ideal) x0 x1 x2 (ix2 p q) = x0 (ix2 p q) + ∑ k : Fin 32, x1 (ix2 p k) * x2 (ix2 k q) := by
  unfold k1_pay1
  simp only [matmul]
  rw [shapeCast_self, addf_apply, Ideal.matmul_constant_zero_apply, ← Equiv.sum_comp (contrEquiv1 dot_S6400x32_S32x64_S6400x64_1_0_0_1_n_n 32 rfl rfl).symm]
  refine congrArg (fun s : Ideal .f32 => x0 (ix2 p q) + s) (Finset.sum_congr rfl fun k _ => ?_)
  have hk := contrEquiv1_symm_val dot_S6400x32_S32x64_S6400x64_1_0_0_1_n_n 32 rfl rfl k
  have el : dot_S6400x32_S32x64_S6400x64_1_0_0_1_n_n.lhsIdx (ix2 p q) ((contrEquiv1 dot_S6400x32_S32x64_S6400x64_1_0_0_1_n_n 32 rfl rfl).symm k) = ix2 p k := funext fun a => Fin.ext (by
    match a with
    | ⟨0, _⟩ => exact lhs_0 _ _
    | ⟨1, _⟩ => exact (lhs_1 _ _).trans hk)
  have er : dot_S6400x32_S32x64_S6400x64_1_0_0_1_n_n.rhsIdx (ix2 p q) ((contrEquiv1 dot_S6400x32_S32x64_S6400x64_1_0_0_1_n_n 32 rfl rfl).symm k) = ix2 k q := funext fun a => Fin.ext (by
    match a with
    | ⟨0, _⟩ => exact (rhs_0 _ _).trans hk
    | ⟨1, _⟩ => exact rhs_1 _ _)
  rw [el, er]
  rfl

/-- The second payload at (p, q) is the maximum of the first with the zero word's value. -/
theorem pay2_apply (x0 : Vec Ideal S6400x64 .f32) (x1 : Vec Ideal S6400x32 .f32) (x2 : Vec Ideal S32x64 .f32)
    (p : Fin 6400) (q : Fin 64) :
    k1_pay2 (F := Ideal) x0 x1 x2 (ix2 p q) = max (k1_pay1 (F := Ideal) x0 x1 x2 (ix2 p q)) (Ideal.ofBits .f32 0x00000000#32) := rfl

/-! ## Where the blocks sit -/

/-- The block indices over the fifty grid points: the gathered projection's, the edge features' and both outputs' blocks
    are row block t of column block 0, the weight's block is always (0, 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0 :=
  (by decide +kernel : ∀ t : Fin grid1.N, _)

/-- Row p of block t is row 6400 t + p of the 320000 message rows. -/
def row (t : Fin cfg1.N) (p : Fin 6400) : Fin 320000 :=
  ⟨t.val * 6400 + p.val, by have ht : t.val < 50 := t.isLt; have hp := p.isLt; omega⟩

theorem emb_0 (t : Fin cfg1.N) (p : Fin 6400) (q : Fin 64) :
    ((cfg1.win 0).blk t).view.emb (ix2 p q) = (ix2 (row t p) q : S320000x64.Idx) := by
  obtain ⟨e0, e1, -⟩ := idx_facts t
  funext a; apply Fin.ext
  match a with
  | ⟨0, _⟩ => show win1_0.index t (0 : Fin 2) * 6400 + 1 * p.val = t.val * 6400 + p.val; omega
  | ⟨1, _⟩ => show win1_0.index t (1 : Fin 2) * 64 + 1 * q.val = q.val; omega

theorem emb_1 (t : Fin cfg1.N) (p : Fin 6400) (k : Fin 32) :
    ((cfg1.win 1).blk t).view.emb (ix2 p k) = (ix2 (row t p) k : S320000x32.Idx) := by
  obtain ⟨-, -, e2, e3, -⟩ := idx_facts t
  funext a; apply Fin.ext
  match a with
  | ⟨0, _⟩ => show win1_1.index t (0 : Fin 2) * 6400 + 1 * p.val = t.val * 6400 + p.val; omega
  | ⟨1, _⟩ => show win1_1.index t (1 : Fin 2) * 32 + 1 * k.val = k.val; omega

theorem emb_2 (t : Fin cfg1.N) (k : Fin 32) (q : Fin 64) :
    ((cfg1.win 2).blk t).view.emb (ix2 k q) = (ix2 k q : S32x64.Idx) := by
  obtain ⟨-, -, -, -, e4, e5, -⟩ := idx_facts t
  funext a; apply Fin.ext
  match a with
  | ⟨0, _⟩ => show win1_2.index t (0 : Fin 2) * 32 + 1 * k.val = k.val; omega
  | ⟨1, _⟩ => show win1_2.index t (1 : Fin 2) * 64 + 1 * q.val = q.val; omega

theorem emb_3 (t : Fin cfg1.N) (p : Fin 6400) (q : Fin 64) :
    ((cfg1.win 3).blk t).view.emb (ix2 p q) = (ix2 (row t p) q : S320000x64.Idx) := by
  obtain ⟨-, -, -, -, -, -, e6, e7, -⟩ := idx_facts t
  funext a; apply Fin.ext
  match a with
  | ⟨0, _⟩ => show win1_3.index t (0 : Fin 2) * 6400 + 1 * p.val = t.val * 6400 + p.val; omega
  | ⟨1, _⟩ => show win1_3.index t (1 : Fin 2) * 64 + 1 * q.val = q.val; omega

theorem emb_4 (t : Fin cfg1.N) (p : Fin 6400) (q : Fin 64) :
    ((cfg1.win 4).blk t).view.emb (ix2 p q) = (ix2 (row t p) q : S320000x64.Idx) := by
  obtain ⟨-, -, -, -, -, -, -, -, e8, e9⟩ := idx_facts t
  funext a; apply Fin.ext
  match a with
  | ⟨0, _⟩ => show win1_4.index t (0 : Fin 2) * 6400 + 1 * p.val = t.val * 6400 + p.val; omega
  | ⟨1, _⟩ => show win1_4.index t (1 : Fin 2) * 64 + 1 * q.val = q.val; omega

/-- The first payload of point t's blocks at (p, q) is the whole-array function at row 6400 t + p, column q. -/
theorem pay1_point (c : Dev nD) (t : Fin cfg1.N) (p : Fin 6400) (q : Fin 64) :
    k1_pay1 (F := Ideal) (iblk1 V c 0 t) (iblk1 V c 1 t) (iblk1 V c 2 t) (ix2 p q)
      = Cert.Rows.addmm (V c main_v1) (V c main_arg1) (V c main_arg3) (ix2 (row t p) q) := by
  refine (pay1_apply (iblk1 V c 0 t) (iblk1 V c 1 t) (iblk1 V c 2 t) p q).trans ?_
  exact congrArg₂ (fun a b : Ideal .f32 => a + b) (congrArg (V c main_v1) (emb_0 t p q))
    (Finset.sum_congr rfl fun k _ => congrArg₂ (fun a b : Ideal .f32 => a * b)
      (congrArg (V c main_arg1) (emb_1 t p k)) (congrArg (V c main_arg3) (emb_2 t k q)))

/-- What point t writes back to the input message is row block t of the residual plus the product. -/
theorem flushed_im_eq (c : Dev nD) (t : Fin cfg1.N) :
    (dat1 (F := Ideal) V c).flushed 3 t
      = ((cfg1.win 3).blk t).view.read (Elt Ideal) (Cert.Rows.addmm (V c main_v1) (V c main_arg1) (V c main_arg3)) := by
  show (cfg1.win 3).cut (grid1.coords t) ((dat1 (F := Ideal) V c).after 3 t) = _
  rw [after1_3]
  unfold out1_3
  rw [View.canon_unit_zero hz]
  simp only [View.ld_unit_zero (S := S6400x64) hz, View.ld_unit_zero (S := S6400x32) hz, View.ld_unit_zero (S := S32x64) hz]
  funext j
  obtain ⟨p, q, rfl⟩ : ∃ (p : Fin 6400) (q : Fin 64), j = ix2 p q := ⟨j 0, j 1, eq_ix2 j⟩
  refine (pay1_point V c t p q).trans ?_
  exact (congrArg (Cert.Rows.addmm (V c main_v1) (V c main_arg1) (V c main_arg3)) (emb_3 t p q)).symm

/-- What point t writes back to the message is row block t of the positive part of that. -/
theorem flushed_msg_eq (c : Dev nD) (t : Fin cfg1.N) :
    (dat1 (F := Ideal) V c).flushed 4 t
      = ((cfg1.win 4).blk t).view.read (Elt Ideal)
          (Cert.Rows.relu (Cert.Rows.addmm (V c main_v1) (V c main_arg1) (V c main_arg3))) := by
  show (cfg1.win 4).cut (grid1.coords t) ((dat1 (F := Ideal) V c).after 4 t) = _
  rw [after1_4]
  unfold out1_4
  rw [View.canon_unit_zero hz]
  simp only [View.ld_unit_zero (S := S6400x64) hz, View.ld_unit_zero (S := S6400x32) hz, View.ld_unit_zero (S := S32x64) hz]
  funext j
  obtain ⟨p, q, rfl⟩ : ∃ (p : Fin 6400) (q : Fin 64), j = ix2 p q := ⟨j 0, j 1, eq_ix2 j⟩
  refine (pay2_apply (iblk1 V c 0 t) (iblk1 V c 1 t) (iblk1 V c 2 t) p q).trans ?_
  refine Eq.trans ?_ (congrArg (Cert.Rows.relu (Cert.Rows.addmm (V c main_v1) (V c main_arg1) (V c main_arg3))) (emb_4 t p q)).symm
  exact congrArg (fun a : Ideal .f32 => max a (Ideal.ofBits .f32 0x00000000#32)) (pay1_point V c t p q)

/-! ## The blocks tile the rows -/

/-- An index of the input-message array is in point t's block iff each coordinate is in the block's range on its axis. -/
theorem mem_blk3 (t : Fin cfg1.N) (i : S320000x64.Idx) :
    i ∈ ((cfg1.win 3).blk t).view.set ↔ ∀ a : Fin 2, win1_3.index t a * S6400x64.size a ≤ (i a).val ∧ (i a).val < win1_3.index t a * S6400x64.size a + S6400x64.size a := by
  show i ∈ ((View.whole main_v2_0).slice (win1_3.rect t)).set ↔ _
  rw [View.set_slice_whole, Rect.mem_set_unit]
  exact Iff.rfl

/-- The same for the message array. -/
theorem mem_blk4 (t : Fin cfg1.N) (i : S320000x64.Idx) :
    i ∈ ((cfg1.win 4).blk t).view.set ↔ ∀ a : Fin 2, win1_4.index t a * S6400x64.size a ≤ (i a).val ∧ (i a).val < win1_4.index t a * S6400x64.size a + S6400x64.size a := by
  show i ∈ ((View.whole main_v2_1).slice (win1_4.rect t)).set ↔ _
  rw [View.set_slice_whole, Rect.mem_set_unit]
  exact Iff.rfl

/-- The fifty row blocks tile the 320000 rows of the input message: row r is in the block of point r / 6400. -/
theorem cover3 (i : S320000x64.Idx) :
    ∃ t : Fin cfg1.N, (cfg1.win 3).flush t = true ∧ i ∈ ((cfg1.win 3).blk t).view.set := by
  have hi0 : (i 0).val < 320000 := (i 0).isLt
  have hi1 : (i 1).val < 64 := (i 1).isLt
  let t : Fin cfg1.N := ⟨(i 0).val / 6400, by show (i 0).val / 6400 < 50; omega⟩
  have ht : t.val = (i 0).val / 6400 := rfl
  obtain ⟨-, -, -, -, -, -, e6, e7, -⟩ := idx_facts t
  refine ⟨t, flush1_3 t, ?_⟩
  rw [mem_blk3]
  intro a
  match a with
  | ⟨0, _⟩ => show win1_3.index t (0 : Fin 2) * 6400 ≤ (i 0).val ∧ (i 0).val < win1_3.index t (0 : Fin 2) * 6400 + 6400; omega
  | ⟨1, _⟩ => show win1_3.index t (1 : Fin 2) * 64 ≤ (i 1).val ∧ (i 1).val < win1_3.index t (1 : Fin 2) * 64 + 64; omega

/-- And those of the message. -/
theorem cover4 (i : S320000x64.Idx) :
    ∃ t : Fin cfg1.N, (cfg1.win 4).flush t = true ∧ i ∈ ((cfg1.win 4).blk t).view.set := by
  have hi0 : (i 0).val < 320000 := (i 0).isLt
  have hi1 : (i 1).val < 64 := (i 1).isLt
  let t : Fin cfg1.N := ⟨(i 0).val / 6400, by show (i 0).val / 6400 < 50; omega⟩
  have ht : t.val = (i 0).val / 6400 := rfl
  obtain ⟨-, -, -, -, -, -, -, -, e8, e9⟩ := idx_facts t
  refine ⟨t, flush1_4 t, ?_⟩
  rw [mem_blk4]
  intro a
  match a with
  | ⟨0, _⟩ => show win1_4.index t (0 : Fin 2) * 6400 ≤ (i 0).val ∧ (i 0).val < win1_4.index t (0 : Fin 2) * 6400 + 6400; omega
  | ⟨1, _⟩ => show win1_4.index t (1 : Fin 2) * 64 ≤ (i 1).val ∧ (i 1).val < win1_4.index t (1 : Fin 2) * 64 + 64; omega

/-- After the region the input-message array is the gathered projection plus the edge features' rows times the weight. -/
theorem final_im (c : Dev nD) :
    (dat1 (F := Ideal) V c).arrAt 3 cfg1.N = Cert.Rows.addmm (V c main_v1) (V c main_arg1) (V c main_arg3) :=
  (dat1 (F := Ideal) V c).arrAt_eq_of_cover 3 (Cert.Rows.addmm (V c main_v1) (V c main_arg1) (V c main_arg3))
    (fun t _ => flushed_im_eq V c t) cover3

/-- After the region the message array is the positive part of the input message. -/
theorem final_msg (c : Dev nD) :
    (dat1 (F := Ideal) V c).arrAt 4 cfg1.N = Cert.Rows.relu (Cert.Rows.addmm (V c main_v1) (V c main_arg1) (V c main_arg3)) :=
  (dat1 (F := Ideal) V c).arrAt_eq_of_cover 4 (Cert.Rows.relu (Cert.Rows.addmm (V c main_v1) (V c main_arg1) (V c main_arg3)))
    (fun t _ => flushed_msg_eq V c t) cover4

end Cert.KernelIdeal.RegionInput

end
-- ==== Proof.RegionStep2.lean ====
/-
  One message update as a whole array. The region runs over fifty blocks of 6400 message rows; at block t it stores the
  maximum with zero of block t of the input message plus block t of the aggregated messages times the whole 64 × 64
  recurrent weight. The fifty blocks tile the 320000 rows.
-/
import proofs.«407001_j54528904790123_3_alg».proof.Proof.Gen.KernelIdeal.Frame
import proofs.«407001_j54528904790123_3_alg».proof.Proof.LibRows
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.RegionStep2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The product of a block of rows with the weight, entry by entry -/

/-- The row of the left factor an entry of the product reads is the entry's row. -/
theorem lhs_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
/-- Its column there is the summation index. -/
theorem lhs_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
/-- The row of the right factor is the summation index. -/
theorem rhs_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
/-- Its column there is the entry's column. -/
theorem rhs_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- Entry (p, q) of a block of rows times the weight, accumulated from zero, is ∑ k, x (p, k) · w (k, q). -/
theorem matmul_apply (x : FVec Ideal S6400x64 .bf16) (w : FVec Ideal S64x64 .bf16) (p : Fin 6400) (q : Fin 64) :
    matmul dot_S6400x64_S64x64_S6400x64_1_0_0_1_n_n none x w (constant (F := Ideal) S6400x64 .f32 0x00000000#32) (ix2 p q)
      = ∑ k : Fin 64, x (ix2 p k) * w (ix2 k q) := by
  simp only [matmul]
  rw [Ideal.matmul_constant_zero_apply, ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 p q) ((contrEquiv1 dot_S6400x64_S64x64_S6400x64_1_0_0_1_n_n 64 rfl rfl).symm k) = ix2 p k := funext fun a => Fin.ext (by
    match a with
    | ⟨0, _⟩ => exact lhs_0 _ _
    | ⟨1, _⟩ => exact (lhs_1 _ _).trans hk)
  have er : dot_S6400x64_S64x64_S6400x64_1_0_0_1_n_n.rhsIdx (ix2 p q) ((contrEquiv1 dot_S6400x64_S64x64_S6400x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The body's stored value at (p, q): the maximum with zero of the residual block's entry plus the product's. -/
theorem payload_apply (x : Vec Ideal S6400x64 .f32) (w : Vec Ideal S64x64 .f32) (b : Vec Ideal S6400x64 .f32) (p : Fin 6400) (q : Fin 64) :
    k2_pay1 (F := Ideal) x w b (ix2 p q)
      = max (b (ix2 p q) + ∑ k : Fin 64, x (ix2 p k) * w (ix2 k q)) (Ideal.ofBits .f32 0x00000000#32) := by
  unfold k2_pay1
  simp only [shapeCast_self]
  rw [maximumf_apply, addf_apply, matmul_apply]
  rfl

/-- When the three blocks hold, around (p, q), the residual at i, row i₀ of the left factor and column i₁ of the weight,
    the body's stored value at (p, q) is the update's entry i. -/
theorem payload_eq_update (im agg : FVec Ideal S320000x64 .f32) (wrec : FVec Ideal S64x64 .f32)
    (x : Vec Ideal S6400x64 .f32) (w : Vec Ideal S64x64 .f32) (b : Vec Ideal S6400x64 .f32)
    (p : Fin 6400) (q : Fin 64) (i : S320000x64.Idx)
    (hb : b (ix2 p q) = im i)
    (hx : ∀ k : Fin 64, x (ix2 p k) = agg (ix2 ⟨(i 0).val, idx2_lt0 i⟩ k))
    (hw : ∀ k : Fin 64, w (ix2 k q) = wrec (ix2 k ⟨(i 1).val, idx2_lt1 i⟩)) :
    k2_pay1 (F := Ideal) x w b (ix2 p q) = Cert.Rows.relu (Cert.Rows.addmm im agg wrec) i := by
  rw [payload_apply, hb]
  show _ = max (im i + ∑ j : Fin 64, agg (ix2 ⟨(i 0).val, idx2_lt0 i⟩ j) * wrec (ix2 j ⟨(i 1).val, idx2_lt1 i⟩)) (Ideal.ofBits .f32 0x00000000#32)
  congr 2
  exact Finset.sum_congr rfl fun k _ => by rw [hx k, hw k]

/-! ## The blocks of the four windows -/

/-- A whole-buffer access starts at zero on both axes. -/
theorem zero_offsets : (![0, 0] : Fin 2 → Nat) = fun _ => 0 := funext fun a => by fin_cases a <;> rfl

/-- The index maps over the fifty points: the two row-blocked inputs and the output sit at block row t, column
    block 0; the weight's one block is the whole matrix. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the aggregate's block at point t is entry (6400 t + p, k) of the aggregate. -/
theorem agg_blk (c : Dev nD) (t : Fin cfg2.N) (p : Fin 6400) (k : Fin 64) (i : S320000x64.Idx)
    (h0 : (i 0).val = t.val * 6400 + p.val) (h1 : (i 1).val = k.val) :
    (iblk2 V c 0 t : Vec Ideal S6400x64 .f32) (ix2 p k) = (V c main_v6 : S320000x64.Idx → Ideal .f32) i := by
  obtain ⟨e0, e1, -⟩ := idx_facts t
  unfold iblk2
  rw [View.read_apply]
  show V c main_v6 _ = V c main_v6 i
  congr 1
  funext a
  apply Fin.ext
  match a with
  | ⟨0, _⟩ => show win2_0.index t (0 : Fin 2) * 6400 + 1 * p.val = (i 0).val; omega
  | ⟨1, _⟩ => show win2_0.index t (1 : Fin 2) * 64 + 1 * k.val = (i 1).val; omega

/-- Entry (p, q) of the input message's block at point t is entry (6400 t + p, q) of the input message. -/
theorem im_blk (c : Dev nD) (t : Fin cfg2.N) (p : Fin 6400) (q : Fin 64) (i : S320000x64.Idx)
    (h0 : (i 0).val = t.val * 6400 + p.val) (h1 : (i 1).val = q.val) :
    (iblk2 V c 1 t : Vec Ideal S6400x64 .f32) (ix2 p q) = (V c main_v2_0 : S320000x64.Idx → Ideal .f32) i := by
  obtain ⟨-, -, e0, e1, -⟩ := idx_facts t
  unfold iblk2
  rw [View.read_apply]
  show V c main_v2_0 _ = V c main_v2_0 i
  congr 1
  funext a
  apply Fin.ext
  match a with
  | ⟨0, _⟩ => show win2_1.index t (0 : Fin 2) * 6400 + 1 * p.val = (i 0).val; omega
  | ⟨1, _⟩ => show win2_1.index t (1 : Fin 2) * 64 + 1 * q.val = (i 1).val; omega

/-- The weight's block at every point is the weight. -/
theorem wrec_blk (c : Dev nD) (t : Fin cfg2.N) (k : Fin 64) (q : Fin 64) (i : S64x64.Idx)
    (h0 : (i 0).val = k.val) (h1 : (i 1).val = q.val) :
    (iblk2 V c 2 t : Vec Ideal S64x64 .f32) (ix2 k q) = (V c main_arg4 : S64x64.Idx → Ideal .f32) i := by
  obtain ⟨-, -, -, -, e0, e1, -⟩ := idx_facts t
  unfold iblk2
  rw [View.read_apply]
  show V c main_arg4 _ = V c main_arg4 i
  congr 1
  funext a
  apply Fin.ext
  match a with
  | ⟨0, _⟩ => show win2_2.index t (0 : Fin 2) * 64 + 1 * k.val = (i 0).val; omega
  | ⟨1, _⟩ => show win2_2.index t (1 : Fin 2) * 64 + 1 * q.val = (i 1).val; omega

/-! ## What a point writes back -/

/-- The update of the input message by the aggregate and the weight, as one array. -/
abbrev update (c : Dev nD) : S320000x64.Idx → Ideal .f32 :=
  Cert.Rows.relu (Cert.Rows.addmm (V c main_v2_0) (V c main_v6) (V c main_arg4))

/-- The body's stored value at (p, q) of point t's blocks is the update at (6400 t + p, q). -/
theorem point_eq (c : Dev nD) (t : Fin cfg2.N) (p : Fin 6400) (q : Fin 64) (i : S320000x64.Idx)
    (h0 : (i 0).val = t.val * 6400 + p.val) (h1 : (i 1).val = q.val) :
    k2_pay1 (F := Ideal) (iblk2 V c 0 t) (iblk2 V c 2 t) (iblk2 V c 1 t) (ix2 p q) = update V c i :=
  payload_eq_update (V c main_v2_0) (V c main_v6) (V c main_arg4) (iblk2 V c 0 t) (iblk2 V c 2 t) (iblk2 V c 1 t) p q i
    (im_blk V c t p q i h0 h1) (fun k => agg_blk V c t p k _ h0 rfl) (fun k => wrec_blk V c t k q _ rfl h1)

/-- What point t writes back is block t of the update. -/
theorem flushed_eq (c : Dev nD) (t : Fin cfg2.N) :
    (dat2 (F := Ideal) V c).flushed 3 t = ((cfg2.win 3).blk t).view.read (Elt Ideal) (update V c) := by
  show (cfg2.win 3).cut (grid2.coords t) ((dat2 (F := Ideal) V c).after 3 t) = _
  rw [after2_3]
  unfold out2_3
  rw [View.canon_unit_zero zero_offsets]
  simp only [View.ld_unit_zero (S := S6400x64) zero_offsets, View.ld_unit_zero (S := S64x64) zero_offsets]
  obtain ⟨-, -, -, -, -, -, e0, e1⟩ := idx_facts t
  funext j
  obtain ⟨p, q, rfl⟩ : ∃ (p : Fin 6400) (q : Fin 64), j = ix2 p q := ⟨j 0, j 1, eq_ix2 j⟩
  show k2_pay1 (F := Ideal) (iblk2 V c 0 t) (iblk2 V c 2 t) (iblk2 V c 1 t) (ix2 p q) = update V c (((cfg2.win 3).blk t).view.emb (ix2 p q))
  refine point_eq V c t p q _ ?_ ?_
  · show win2_3.index t (0 : Fin 2) * 6400 + 1 * p.val = t.val * 6400 + p.val; omega
  · show win2_3.index t (1 : Fin 2) * 64 + 1 * q.val = q.val; omega

/-! ## The fifty blocks tile the rows -/

/-- An index of the array is in point t's block iff each coordinate is in the block's range on its axis. -/
theorem mem_blk (t : Fin cfg2.N) (i : S320000x64.Idx) :
    i ∈ ((cfg2.win 3).blk t).view.set ↔ ∀ a : Fin 2, win2_3.index t a * S6400x64.size a ≤ (i a).val ∧ (i a).val < win2_3.index t a * S6400x64.size a + S6400x64.size a := by
  have h : ((cfg2.win 3).blk t).view.set = (win2_3.rect t).set := View.set_slice_whole _ _
  rw [h, Rect.mem_set_unit]
  exact Iff.rfl

/-- Row r lies in the block of point r / 6400. -/
theorem cover (i : S320000x64.Idx) :
    ∃ t : Fin cfg2.N, (cfg2.win 3).flush t = true ∧ i ∈ ((cfg2.win 3).blk t).view.set := by
  have hi0 : (i 0).val < 320000 := idx2_lt0 i
  have hi1 : (i 1).val < 64 := idx2_lt1 i
  have hN : (i 0).val / 6400 < cfg2.N := by show (i 0).val / 6400 < 50; omega
  refine ⟨⟨(i 0).val / 6400, hN⟩, flush2_3 _, ?_⟩
  obtain ⟨-, -, -, -, -, -, e0, e1⟩ := idx_facts ⟨(i 0).val / 6400, hN⟩
  rw [mem_blk]
  intro a
  match a with
  | ⟨0, _⟩ => show win2_3.index ⟨(i 0).val / 6400, hN⟩ (0 : Fin 2) * 6400 ≤ (i 0).val ∧ (i 0).val < win2_3.index ⟨(i 0).val / 6400, hN⟩ (0 : Fin 2) * 6400 + 6400; rw [e0]; show (i 0).val / 6400 * 6400 ≤ (i 0).val ∧ (i 0).val < (i 0).val / 6400 * 6400 + 6400; omega
  | ⟨1, _⟩ => show win2_3.index ⟨(i 0).val / 6400, hN⟩ (1 : Fin 2) * 64 ≤ (i 1).val ∧ (i 1).val < win2_3.index ⟨(i 0).val / 6400, hN⟩ (1 : Fin 2) * 64 + 64; rw [e1]; omega

/-- After the region its output array is the positive part of the input message plus the aggregate's rows times the weight. -/
theorem final (c : Dev nD) :
    (dat2 (F := Ideal) V c).arrAt 3 cfg2.N
      = Cert.Rows.relu (Cert.Rows.addmm (V c main_v2_0) (V c main_v6) (V c main_arg4)) :=
  (dat2 (F := Ideal) V c).arrAt_eq_of_cover 3 (update V c) (fun t _ => flushed_eq V c t) cover

end Cert.KernelIdeal.RegionStep2

end
-- ==== Proof.Bridge.lean ====
/-
  The kernel's stages are the reference's stages, one at a time, as functions of the argument arrays on the extended
  reals.

  * The input message. The kernel projects the 10000 node rows first and gathers projected rows; the reference gathers
    node rows and projects the gathered rows. A row gather commutes with a product by a weight matrix on the right
    (entry (e, q) of either is ∑ j, node (r e, j) · W (j, q)), and both programs wrap and clamp the start indices the same way.
  * Each message update: the aggregate's rows times the recurrent weight, the input message added, the positive part: the
    reference's `dot_general`, `add` and `maximum` read at an index.
  * The aggregations and the final reduction are the same scatter-add of the same rows at the same destination indices.
-/
import proofs.«407001_j54528904790123_3_alg».proof.Proof.TakeDefs
import proofs.«407001_j54528904790123_3_alg».proof.Proof.LibRows
import proofs.«407001_j54528904790123_3_alg».proof.Proof.Gen.ReferenceIdeal.Read
import Idealize.ShloMosaic.Lib.ValueIdx
import Idealize.ShloMosaic.PureOps.Ideal
import Idealize.ShloMosaic.PureOps.Ideal.Laws

set_option maxRecDepth 16384

noncomputable section

namespace Cert.Bridge

open Idealize.ShloMosaic Idealize.ShloMosaic.ValueIdx
open Cert.ReferenceIdeal.Read

/-- The product of a table of rows with a weight matrix read at an index, the two operand indices given as any
    functions of the summation position that name row `i 0` of the left operand and column `i 1` of the right. -/
theorem mm_apply_of {n k o : Nat} (x : FVec Ideal ⟨2, ![n, k]⟩ .f32) (w : FVec Ideal ⟨2, ![k, o]⟩ .f32)
    (i : (⟨2, ![n, o]⟩ : Shape).Idx) (l : Fin k → (⟨2, ![n, k]⟩ : Shape).Idx) (r : Fin k → (⟨2, ![k, o]⟩ : Shape).Idx)
    (hl : ∀ j, l j = ix2 ⟨(i 0).val, idx2_lt0 i⟩ j) (hr : ∀ j, r j = ix2 j ⟨(i 1).val, idx2_lt1 i⟩) :
    Cert.Rows.mm x w i = ∑ j : Fin k, x (l j) * w (r j) := by
  unfold Cert.Rows.mm
  exact Finset.sum_congr rfl fun j _ => by rw [hl j, hr j]

/-- Both programs wrap a negative node index by 10000 and lay the indices as a column, operation for operation. -/
theorem startCol0_eq (x5 : IVec ⟨1, ![320000]⟩ 32) :
    Cert.KernelIdeal.Take.startCol0 x5 = val_main_v5 (F := Ideal) x5 := by
  unfold Cert.KernelIdeal.Take.startCol0 val_main_v5 val_main_v4 val_main_v3 val_main_v2 val_main_v1 val_main_v0 val_main_c val_main_c_0
  rfl

/-- The input message: the gathered projection plus the edge part is the reference's sum of its two products. -/
theorem input_message (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x5 : IVec ⟨1, ![320000]⟩ 32) :
    Cert.Rows.addmm (Host.gather Cert.KernelIdeal.gather_S10000x64_S320000x1_S320000x64_1_0_n_n_0_1_164 (Cert.Rows.mm x0 x2)
        (Cert.KernelIdeal.Take.startCol0 x5)) x1 x3
      = val_main_v9 (F := Ideal) x0 x1 x2 x3 x5 := by
  funext i
  unfold Cert.Rows.addmm
  rw [val_main_v9_apply, val_main_v7_apply, val_main_v8_apply]
  unfold val_main_v6
  -- the gather of the projected rows is the projection of the gathered rows; the start column is the reference's
  rw [Cert.Rows.gather_mm (by omega) Cert.ReferenceIdeal.gather_S10000x128_S320000x1_S320000x128_1_0_n_n_0_1_1128
      Cert.KernelIdeal.gather_S10000x64_S320000x1_S320000x64_1_0_n_n_0_1_164 ⟨rfl, rfl, rfl, rfl, rfl⟩ ⟨rfl, rfl, rfl, rfl, rfl⟩
      x0 x2 (Cert.KernelIdeal.Take.startCol0 x5),
    startCol0_eq x5,
    mm_apply_of _ x2 i (lidx_main_v7 i) (ridx_main_v7 i) (fun j => funext fun a => Fin.ext (by match a with | ⟨0, _⟩ => rfl | ⟨1, _⟩ => rfl)) (fun j => funext fun a => Fin.ext (by match a with | ⟨0, _⟩ => rfl | ⟨1, _⟩ => rfl)),
    mm_apply_of x1 x3 i (lidx_main_v8 i) (ridx_main_v8 i) (fun j => funext fun a => Fin.ext (by match a with | ⟨0, _⟩ => rfl | ⟨1, _⟩ => rfl)) (fun j => funext fun a => Fin.ext (by match a with | ⟨0, _⟩ => rfl | ⟨1, _⟩ => rfl))]
  rfl

/-- The first message: the positive part of the input message. -/
theorem first_message (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x5 : IVec ⟨1, ![320000]⟩ 32) :
    Cert.Rows.relu (val_main_v9 (F := Ideal) x0 x1 x2 x3 x5) = val_main_v10 (F := Ideal) x0 x1 x2 x3 x5 := by
  funext i
  unfold Cert.Rows.relu
  rw [val_main_v10_apply, val_main_call0_v0_apply, val_main_call0_cst_apply]
  rfl

/-- The three aggregations: the kernel's segment sum of the looked-up message rows is the reference's. -/
theorem agg1 (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x4 : FVec Ideal ⟨2, ![64, 64]⟩ .f32) (x5 : IVec ⟨1, ![320000]⟩ 32) (x6 x7 : IVec ⟨1, ![2560000]⟩ 32) :
    Cert.KernelIdeal.Take.segsum1 (Host.gather Cert.KernelIdeal.gather_S320000x64_S2560000x1_S2560000x64_1_0_n_n_0_1_164
        (val_main_v10 (F := Ideal) x0 x1 x2 x3 x5) (Cert.KernelIdeal.Take.startCol1 x6)) x7
      = val_main_v20 (F := Ideal) x0 x1 x2 x3 x5 x6 x7 := by
  -- the reference's stage opened down to its scatter-add, its row gather and its wrapped start column
  unfold val_main_v20 val_main_v17 val_main_v18 val_main_v19 val_main_cst val_main_v16 val_main_v15 val_main_v14 val_main_v13 val_main_v12 val_main_v11 val_main_c_1 val_main_c_2
  unfold Cert.KernelIdeal.Take.segsum1 Cert.KernelIdeal.Take.startCol1
  -- the same scatter-add of the same gathered rows: the two programs' records have equal fields
  generalize val_main_v10 (F := Ideal) x0 x1 x2 x3 x5 = m
  rfl
theorem agg2 (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x4 : FVec Ideal ⟨2, ![64, 64]⟩ .f32) (x5 : IVec ⟨1, ![320000]⟩ 32) (x6 x7 : IVec ⟨1, ![2560000]⟩ 32) :
    Cert.KernelIdeal.Take.segsum1 (Host.gather Cert.KernelIdeal.gather_S320000x64_S2560000x1_S2560000x64_1_0_n_n_0_1_164
        (val_main_v23 (F := Ideal) x0 x1 x2 x3 x4 x5 x6 x7) (Cert.KernelIdeal.Take.startCol1 x6)) x7
      = val_main_v33 (F := Ideal) x0 x1 x2 x3 x4 x5 x6 x7 := by
  -- the reference's stage opened down to its scatter-add, its row gather and its wrapped start column
  unfold val_main_v33 val_main_v30 val_main_v31 val_main_v32 val_main_cst_5 val_main_v29 val_main_v28 val_main_v27 val_main_v26 val_main_v25 val_main_v24 val_main_c_3 val_main_c_4
  unfold Cert.KernelIdeal.Take.segsum1 Cert.KernelIdeal.Take.startCol1
  -- the same scatter-add of the same gathered rows: the two programs' records have equal fields
  generalize val_main_v23 (F := Ideal) x0 x1 x2 x3 x4 x5 x6 x7 = m
  rfl
theorem agg3 (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x4 : FVec Ideal ⟨2, ![64, 64]⟩ .f32) (x5 : IVec ⟨1, ![320000]⟩ 32) (x6 x7 : IVec ⟨1, ![2560000]⟩ 32) :
    Cert.KernelIdeal.Take.segsum1 (Host.gather Cert.KernelIdeal.gather_S320000x64_S2560000x1_S2560000x64_1_0_n_n_0_1_164
        (val_main_v36 (F := Ideal) x0 x1 x2 x3 x4 x5 x6 x7) (Cert.KernelIdeal.Take.startCol1 x6)) x7
      = val_main_v46 (F := Ideal) x0 x1 x2 x3 x4 x5 x6 x7 := by
  -- the reference's stage opened down to its scatter-add, its row gather and its wrapped start column
  unfold val_main_v46 val_main_v43 val_main_v44 val_main_v45 val_main_cst_8 val_main_v42 val_main_v41 val_main_v40 val_main_v39 val_main_v38 val_main_v37 val_main_c_6 val_main_c_7
  unfold Cert.KernelIdeal.Take.segsum1 Cert.KernelIdeal.Take.startCol1
  -- the same scatter-add of the same gathered rows: the two programs' records have equal fields
  generalize val_main_v36 (F := Ideal) x0 x1 x2 x3 x4 x5 x6 x7 = m
  rfl

/-- The three updates: the positive part of the input message plus the aggregate's rows times the recurrent weight. -/
theorem step1 (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x4 : FVec Ideal ⟨2, ![64, 64]⟩ .f32) (x5 : IVec ⟨1, ![320000]⟩ 32) (x6 x7 : IVec ⟨1, ![2560000]⟩ 32) :
    Cert.Rows.relu (Cert.Rows.addmm (val_main_v9 (F := Ideal) x0 x1 x2 x3 x5) (val_main_v20 (F := Ideal) x0 x1 x2 x3 x5 x6 x7) x4)
      = val_main_v23 (F := Ideal) x0 x1 x2 x3 x4 x5 x6 x7 := by
  funext i
  unfold Cert.Rows.relu Cert.Rows.addmm
  rw [val_main_v23_apply, val_main_v22_apply, val_main_v21_apply, val_main_call1_v0_apply, val_main_call1_cst_apply,
    mm_apply_of (val_main_v20 (F := Ideal) x0 x1 x2 x3 x5 x6 x7) x4 i (lidx_main_v21 i) (ridx_main_v21 i) (fun j => funext fun a => Fin.ext (by match a with | ⟨0, _⟩ => rfl | ⟨1, _⟩ => rfl)) (fun j => funext fun a => Fin.ext (by match a with | ⟨0, _⟩ => rfl | ⟨1, _⟩ => rfl))]
  rfl
theorem step2 (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x4 : FVec Ideal ⟨2, ![64, 64]⟩ .f32) (x5 : IVec ⟨1, ![320000]⟩ 32) (x6 x7 : IVec ⟨1, ![2560000]⟩ 32) :
    Cert.Rows.relu (Cert.Rows.addmm (val_main_v9 (F := Ideal) x0 x1 x2 x3 x5) (val_main_v33 (F := Ideal) x0 x1 x2 x3 x4 x5 x6 x7) x4)
      = val_main_v36 (F := Ideal) x0 x1 x2 x3 x4 x5 x6 x7 := by
  funext i
  unfold Cert.Rows.relu Cert.Rows.addmm
  rw [val_main_v36_apply, val_main_v35_apply, val_main_v34_apply, val_main_call2_v0_apply, val_main_call2_cst_apply,
    mm_apply_of (val_main_v33 (F := Ideal) x0 x1 x2 x3 x4 x5 x6 x7) x4 i (lidx_main_v34 i) (ridx_main_v34 i) (fun j => funext fun a => Fin.ext (by match a with | ⟨0, _⟩ => rfl | ⟨1, _⟩ => rfl)) (fun j => funext fun a => Fin.ext (by match a with | ⟨0, _⟩ => rfl | ⟨1, _⟩ => rfl))]
  rfl
theorem step3 (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x4 : FVec Ideal ⟨2, ![64, 64]⟩ .f32) (x5 : IVec ⟨1, ![320000]⟩ 32) (x6 x7 : IVec ⟨1, ![2560000]⟩ 32) :
    Cert.Rows.relu (Cert.Rows.addmm (val_main_v9 (F := Ideal) x0 x1 x2 x3 x5) (val_main_v46 (F := Ideal) x0 x1 x2 x3 x4 x5 x6 x7) x4)
      = val_main_v49 (F := Ideal) x0 x1 x2 x3 x4 x5 x6 x7 := by
  funext i
  unfold Cert.Rows.relu Cert.Rows.addmm
  rw [val_main_v49_apply, val_main_v48_apply, val_main_v47_apply, val_main_call3_v0_apply, val_main_call3_cst_apply,
    mm_apply_of (val_main_v46 (F := Ideal) x0 x1 x2 x3 x4 x5 x6 x7) x4 i (lidx_main_v47 i) (ridx_main_v47 i) (fun j => funext fun a => Fin.ext (by match a with | ⟨0, _⟩ => rfl | ⟨1, _⟩ => rfl)) (fun j => funext fun a => Fin.ext (by match a with | ⟨0, _⟩ => rfl | ⟨1, _⟩ => rfl))]
  rfl

/-- The final reduction into the 10000 node rows. -/
theorem output (x0 : FVec Ideal ⟨2, ![10000, 128]⟩ .f32) (x1 : FVec Ideal ⟨2, ![320000, 32]⟩ .f32) (x2 : FVec Ideal ⟨2, ![128, 64]⟩ .f32) (x3 : FVec Ideal ⟨2, ![32, 64]⟩ .f32) (x4 : FVec Ideal ⟨2, ![64, 64]⟩ .f32) (x5 : IVec ⟨1, ![320000]⟩ 32) (x6 x7 : IVec ⟨1, ![2560000]⟩ 32) (x8 : IVec ⟨1, ![320000]⟩ 32) :
    Cert.KernelIdeal.Take.segsum0 (val_main_v49 (F := Ideal) x0 x1 x2 x3 x4 x5 x6 x7) x8 = val_main_v52 (F := Ideal) x0 x1 x2 x3 x4 x5 x6 x7 x8 := by
  unfold val_main_v52 val_main_v50 val_main_v51 val_main_cst_9 Cert.KernelIdeal.Take.segsum0
  generalize val_main_v49 (F := Ideal) x0 x1 x2 x3 x4 x5 x6 x7 = m
  rfl

end Cert.Bridge

end
-- ==== Proof.Fold.lean ====
/-
  The idealized kernel's result as a function of its arguments: the contents of every buffer the program reads later, at
  every boundary between @main's segments, walked from the launch memory to the return.

  * A region leaves in each of its output arrays the whole-array function of its input arrays that its blocks tile
    (the projection; the input message and its positive part; each update), and leaves every other buffer alone.
  * A host stretch leaves in its result buffer the stretch's function of the buffers it reads (a row lookup, a segment
    sum), and leaves every buffer it does not write alone.
  * Where the two lookup index arrays are in range no looked-up row is overwritten, and each stage is the reference's
    stage of the same arguments: the input message (a row gather commutes with the projection), its positive part, then
    three times an aggregation and an update, and the final reduction into the node rows.
-/
import proofs.«407001_j54528904790123_3_alg».proof.Proof.Gen.KernelIdeal.Frame
import proofs.«407001_j54528904790123_3_alg».proof.Proof.LibRows
import proofs.«407001_j54528904790123_3_alg».proof.Proof.TakeDefs
import proofs.«407001_j54528904790123_3_alg».proof.Proof.TakeStretch
import proofs.«407001_j54528904790123_3_alg».proof.Proof.TakeInRange
import proofs.«407001_j54528904790123_3_alg».proof.Proof.RegionProj
import proofs.«407001_j54528904790123_3_alg».proof.Proof.RegionInput
import proofs.«407001_j54528904790123_3_alg».proof.Proof.RegionStep2
import proofs.«407001_j54528904790123_3_alg».proof.Proof.RegionStep3
import proofs.«407001_j54528904790123_3_alg».proof.Proof.RegionStep4
import proofs.«407001_j54528904790123_3_alg».proof.Proof.Bridge

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read

/-! ## A host stretch leaves alone every buffer none of its operations writes -/

/-- Closes `after ops V b = V b`: the buffer is none of the stretch's result buffers, one inequality of references per
    operation. -/
local macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The arguments, and the boundary contents -/

variable (m : (ℓ : Loc nD τ sig) → Buf (Elt Ideal) ℓ) (ρ : Dev nD → PrngReg) (c : Dev nD)

/-- The nine argument arrays as launched, at their literal types. -/
abbrev x0 : FVec Ideal ⟨2, ![10000, 128]⟩ .f32 := m ((c : Thread nD τ).loc main_arg0)
abbrev x1 : FVec Ideal ⟨2, ![320000, 32]⟩ .f32 := m ((c : Thread nD τ).loc main_arg1)
abbrev x2 : FVec Ideal ⟨2, ![128, 64]⟩ .f32 := m ((c : Thread nD τ).loc main_arg2)
abbrev x3 : FVec Ideal ⟨2, ![32, 64]⟩ .f32 := m ((c : Thread nD τ).loc main_arg3)
abbrev x4 : FVec Ideal ⟨2, ![64, 64]⟩ .f32 := m ((c : Thread nD τ).loc main_arg4)
abbrev x5 : IVec ⟨1, ![320000]⟩ 32 := m ((c : Thread nD τ).loc main_arg5)
abbrev x6 : IVec ⟨1, ![2560000]⟩ 32 := m ((c : Thread nD τ).loc main_arg6)
abbrev x7 : IVec ⟨1, ![2560000]⟩ 32 := m ((c : Thread nD τ).loc main_arg7)
abbrev x8 : IVec ⟨1, ![320000]⟩ 32 := m ((c : Thread nD τ).loc main_arg8)

/-! ### After the projection region -/

theorem w1_v0 : W1 m ρ c (Proc.devRef .tc main_v0) = Cert.Rows.mm (x0 m c) (x2 m c) :=
  (W1_arr m ρ c 2).trans (Cert.KernelIdeal.RegionProj.final (V0 m ρ) c)
theorem w1_arg1 : W1 m ρ c (Proc.devRef .tc main_arg1) = x1 m c := W1_of_ne m ρ c main_arg1 (by decide)
theorem w1_arg3 : W1 m ρ c (Proc.devRef .tc main_arg3) = x3 m c := W1_of_ne m ρ c main_arg3 (by decide)
theorem w1_arg4 : W1 m ρ c (Proc.devRef .tc main_arg4) = x4 m c := W1_of_ne m ρ c main_arg4 (by decide)
theorem w1_arg5 : W1 m ρ c (Proc.devRef .tc main_arg5) = x5 m c := W1_of_ne m ρ c main_arg5 (by decide)
theorem w1_arg6 : W1 m ρ c (Proc.devRef .tc main_arg6) = x6 m c := W1_of_ne m ρ c main_arg6 (by decide)
theorem w1_arg7 : W1 m ρ c (Proc.devRef .tc main_arg7) = x7 m c := W1_of_ne m ρ c main_arg7 (by decide)
theorem w1_arg8 : W1 m ρ c (Proc.devRef .tc main_arg8) = x8 m c := W1_of_ne m ρ c main_arg8 (by decide)

/-! ### After the node lookup -/

theorem w2_v1 (h5 : Cert.Rows.InRange 10000 (x5 m c)) :
    W2 m ρ c (Proc.devRef .tc main_v1)
      = Host.gather gather_S10000x64_S320000x1_S320000x64_1_0_n_n_0_1_164 (Cert.Rows.mm (x0 m c) (x2 m c)) (Take.startCol0 (x5 m c)) := by
  refine (Take.stretch1 (W1 m ρ c)).trans ?_
  rw [w1_v0, w1_arg5]
  exact Take.take0_eq_gather _ _ h5
theorem w2_arg1 : W2 m ρ c (Proc.devRef .tc main_arg1) = x1 m c := (by host_keeps hostOps1 : W2 m ρ c (Proc.devRef .tc main_arg1) = W1 m ρ c (Proc.devRef .tc main_arg1)).trans (w1_arg1 m ρ c)
theorem w2_arg3 : W2 m ρ c (Proc.devRef .tc main_arg3) = x3 m c := (by host_keeps hostOps1 : W2 m ρ c (Proc.devRef .tc main_arg3) = W1 m ρ c (Proc.devRef .tc main_arg3)).trans (w1_arg3 m ρ c)
theorem w2_arg4 : W2 m ρ c (Proc.devRef .tc main_arg4) = x4 m c := (by host_keeps hostOps1 : W2 m ρ c (Proc.devRef .tc main_arg4) = W1 m ρ c (Proc.devRef .tc main_arg4)).trans (w1_arg4 m ρ c)
theorem w2_arg6 : W2 m ρ c (Proc.devRef .tc main_arg6) = x6 m c := (by host_keeps hostOps1 : W2 m ρ c (Proc.devRef .tc main_arg6) = W1 m ρ c (Proc.devRef .tc main_arg6)).trans (w1_arg6 m ρ c)
theorem w2_arg7 : W2 m ρ c (Proc.devRef .tc main_arg7) = x7 m c := (by host_keeps hostOps1 : W2 m ρ c (Proc.devRef .tc main_arg7) = W1 m ρ c (Proc.devRef .tc main_arg7)).trans (w1_arg7 m ρ c)
theorem w2_arg8 : W2 m ρ c (Proc.devRef .tc main_arg8) = x8 m c := (by host_keeps hostOps1 : W2 m ρ c (Proc.devRef .tc main_arg8) = W1 m ρ c (Proc.devRef .tc main_arg8)).trans (w1_arg8 m ρ c)

/-! ### After the input-message region: the reference's input message and first message -/

theorem w3_im (h5 : Cert.Rows.InRange 10000 (x5 m c)) :
    W3 m ρ c (Proc.devRef .tc main_v2_0) = val_main_v9 (F := Ideal) (x0 m c) (x1 m c) (x2 m c) (x3 m c) (x5 m c) := by
  refine ((W3_arr m ρ c 3).trans (Cert.KernelIdeal.RegionInput.final_im (V2 m ρ) c)).trans ?_
  show Cert.Rows.addmm (W2 m ρ c (Proc.devRef .tc main_v1)) (W2 m ρ c (Proc.devRef .tc main_arg1)) (W2 m ρ c (Proc.devRef .tc main_arg3)) = _
  rw [w2_v1 m ρ c h5, w2_arg1, w2_arg3]
  exact Cert.Bridge.input_message _ _ _ _ _
theorem w3_msg (h5 : Cert.Rows.InRange 10000 (x5 m c)) :
    W3 m ρ c (Proc.devRef .tc main_v2_1) = val_main_v10 (F := Ideal) (x0 m c) (x1 m c) (x2 m c) (x3 m c) (x5 m c) := by
  refine ((W3_arr m ρ c 4).trans (Cert.KernelIdeal.RegionInput.final_msg (V2 m ρ) c)).trans ?_
  show Cert.Rows.relu (Cert.Rows.addmm (W2 m ρ c (Proc.devRef .tc main_v1)) (W2 m ρ c (Proc.devRef .tc main_arg1)) (W2 m ρ c (Proc.devRef .tc main_arg3))) = _
  rw [w2_v1 m ρ c h5, w2_arg1, w2_arg3, Cert.Bridge.input_message]
  exact Cert.Bridge.first_message _ _ _ _ _
theorem w3_arg4 : W3 m ρ c (Proc.devRef .tc main_arg4) = x4 m c := (W3_of_ne m ρ c main_arg4 (by decide)).trans (w2_arg4 m ρ c)
theorem w3_arg6 : W3 m ρ c (Proc.devRef .tc main_arg6) = x6 m c := (W3_of_ne m ρ c main_arg6 (by decide)).trans (w2_arg6 m ρ c)
theorem w3_arg7 : W3 m ρ c (Proc.devRef .tc main_arg7) = x7 m c := (W3_of_ne m ρ c main_arg7 (by decide)).trans (w2_arg7 m ρ c)
theorem w3_arg8 : W3 m ρ c (Proc.devRef .tc main_arg8) = x8 m c := (W3_of_ne m ρ c main_arg8 (by decide)).trans (w2_arg8 m ρ c)

/-! ### The first step: lookup, aggregation, update -/

section Steps
variable (h5 : Cert.Rows.InRange 10000 (x5 m c)) (h6 : Cert.Rows.InRange 320000 (x6 m c))
include h5 h6

theorem w4_v3 :
    W4 m ρ c (Proc.devRef .tc main_v3)
      = Host.gather gather_S320000x64_S2560000x1_S2560000x64_1_0_n_n_0_1_164
          (val_main_v10 (F := Ideal) (x0 m c) (x1 m c) (x2 m c) (x3 m c) (x5 m c)) (Take.startCol1 (x6 m c)) := by
  refine (Take.stretch2 (W3 m ρ c)).trans ?_
  rw [w3_msg m ρ c h5, w3_arg6]
  exact Take.take1_eq_gather _ _ h6
omit h6 in
theorem w4_im : W4 m ρ c (Proc.devRef .tc main_v2_0) = val_main_v9 (F := Ideal) (x0 m c) (x1 m c) (x2 m c) (x3 m c) (x5 m c) :=
  (by host_keeps hostOps2 : W4 m ρ c (Proc.devRef .tc main_v2_0) = W3 m ρ c (Proc.devRef .tc main_v2_0)).trans (w3_im m ρ c h5)
omit h5 h6 in
theorem w4_arg4 : W4 m ρ c (Proc.devRef .tc main_arg4) = x4 m c := (by host_keeps hostOps2 : W4 m ρ c (Proc.devRef .tc main_arg4) = W3 m ρ c (Proc.devRef .tc main_arg4)).trans (w3_arg4 m ρ c)
omit h5 h6 in
theorem w4_arg6 : W4 m ρ c (Proc.devRef .tc main_arg6) = x6 m c := (by host_keeps hostOps2 : W4 m ρ c (Proc.devRef .tc main_arg6) = W3 m ρ c (Proc.devRef .tc main_arg6)).trans (w3_arg6 m ρ c)
omit h5 h6 in
theorem w4_arg7 : W4 m ρ c (Proc.devRef .tc main_arg7) = x7 m c := (by host_keeps hostOps2 : W4 m ρ c (Proc.devRef .tc main_arg7) = W3 m ρ c (Proc.devRef .tc main_arg7)).trans (w3_arg7 m ρ c)
omit h5 h6 in
theorem w4_arg8 : W4 m ρ c (Proc.devRef .tc main_arg8) = x8 m c := (by host_keeps hostOps2 : W4 m ρ c (Proc.devRef .tc main_arg8) = W3 m ρ c (Proc.devRef .tc main_arg8)).trans (w3_arg8 m ρ c)

theorem w5_agg :
    W5 m ρ c (Proc.devRef .tc main_v6)
      = val_main_v20 (F := Ideal) (x0 m c) (x1 m c) (x2 m c) (x3 m c) (x5 m c) (x6 m c) (x7 m c) := by
  refine (Take.stretch2_1 (W4 m ρ c)).trans ?_
  rw [w4_v3 m ρ c h5 h6, w4_arg7]
  exact Cert.Bridge.agg1 _ _ _ _ (x4 m c) _ _ _
omit h6 in
theorem w5_im : W5 m ρ c (Proc.devRef .tc main_v2_0) = val_main_v9 (F := Ideal) (x0 m c) (x1 m c) (x2 m c) (x3 m c) (x5 m c) :=
  (by host_keeps hostOps2_1 : W5 m ρ c (Proc.devRef .tc main_v2_0) = W4 m ρ c (Proc.devRef .tc main_v2_0)).trans (w4_im m ρ c h5)
omit h5 h6 in
theorem w5_arg4 : W5 m ρ c (Proc.devRef .tc main_arg4) = x4 m c := (by host_keeps hostOps2_1 : W5 m ρ c (Proc.devRef .tc main_arg4) = W4 m ρ c (Proc.devRef .tc main_arg4)).trans (w4_arg4 m ρ c)
omit h5 h6 in
theorem w5_arg6 : W5 m ρ c (Proc.devRef .tc main_arg6) = x6 m c := (by host_keeps hostOps2_1 : W5 m ρ c (Proc.devRef .tc main_arg6) = W4 m ρ c (Proc.devRef .tc main_arg6)).trans (w4_arg6 m ρ c)
omit h5 h6 in
theorem w5_arg7 : W5 m ρ c (Proc.devRef .tc main_arg7) = x7 m c := (by host_keeps hostOps2_1 : W5 m ρ c (Proc.devRef .tc main_arg7) = W4 m ρ c (Proc.devRef .tc main_arg7)).trans (w4_arg7 m ρ c)
omit h5 h6 in
theorem w5_arg8 : W5 m ρ c (Proc.devRef .tc main_arg8) = x8 m c := (by host_keeps hostOps2_1 : W5 m ρ c (Proc.devRef .tc main_arg8) = W4 m ρ c (Proc.devRef .tc main_arg8)).trans (w4_arg8 m ρ c)

theorem w6_msg :
    W6 m ρ c (Proc.devRef .tc main_v7)
      = val_main_v23 (F := Ideal) (x0 m c) (x1 m c) (x2 m c) (x3 m c) (x4 m c) (x5 m c) (x6 m c) (x7 m c) := by
  refine ((W6_arr m ρ c 3).trans (Cert.KernelIdeal.RegionStep2.final (V5 m ρ) c)).trans ?_
  show Cert.Rows.relu (Cert.Rows.addmm (W5 m ρ c (Proc.devRef .tc main_v2_0)) (W5 m ρ c (Proc.devRef .tc main_v6)) (W5 m ρ c (Proc.devRef .tc main_arg4))) = _
  rw [w5_im m ρ c h5, w5_agg m ρ c h5 h6, w5_arg4]
  exact Cert.Bridge.step1 _ _ _ _ _ _ _ _
omit h6 in
theorem w6_im : W6 m ρ c (Proc.devRef .tc main_v2_0) = val_main_v9 (F := Ideal) (x0 m c) (x1 m c) (x2 m c) (x3 m c) (x5 m c) :=
  ((W6_arr m ρ c 1).trans (((dat2 (V5 m ρ) c).arrAt_in 1 rfl _).trans (A_eq2 (V5 m ρ) c 1))).trans (w5_im m ρ c h5)
omit h5 h6 in
theorem w6_arg4 : W6 m ρ c (Proc.devRef .tc main_arg4) = x4 m c :=
  ((W6_arr m ρ c 2).trans (((dat2 (V5 m ρ) c).arrAt_in 2 rfl _).trans (A_eq2 (V5 m ρ) c 2))).trans (w5_arg4 m ρ c)
omit h5 h6 in
theorem w6_arg6 : W6 m ρ c (Proc.devRef .tc main_arg6) = x6 m c := (W6_of_ne m ρ c main_arg6 (by decide)).trans (w5_arg6 m ρ c)
omit h5 h6 in
theorem w6_arg7 : W6 m ρ c (Proc.devRef .tc main_arg7) = x7 m c := (W6_of_ne m ρ c main_arg7 (by decide)).trans (w5_arg7 m ρ c)
omit h5 h6 in
theorem w6_arg8 : W6 m ρ c (Proc.devRef .tc main_arg8) = x8 m c := (W6_of_ne m ρ c main_arg8 (by decide)).trans (w5_arg8 m ρ c)

/-! ### The second step -/

theorem w7_v8 :
    W7 m ρ c (Proc.devRef .tc main_v8)
      = Host.gather gather_S320000x64_S2560000x1_S2560000x64_1_0_n_n_0_1_164
          (val_main_v23 (F := Ideal) (x0 m c) (x1 m c) (x2 m c) (x3 m c) (x4 m c) (x5 m c) (x6 m c) (x7 m c)) (Take.startCol1 (x6 m c)) := by
  refine (Take.stretch3 (W6 m ρ c)).trans ?_
  rw [w6_msg m ρ c h5 h6, w6_arg6]
  exact Take.take1_eq_gather _ _ h6
omit h6 in
theorem w7_im : W7 m ρ c (Proc.devRef .tc main_v2_0) = val_main_v9 (F := Ideal) (x0 m c) (x1 m c) (x2 m c) (x3 m c) (x5 m c) :=
  (by host_keeps hostOps3 : W7 m ρ c (Proc.devRef .tc main_v2_0) = W6 m ρ c (Proc.devRef .tc main_v2_0)).trans (w6_im m ρ c h5)
omit h5 h6 in
theorem w7_arg4 : W7 m ρ c (Proc.devRef .tc main_arg4) = x4 m c := (by host_keeps hostOps3 : W7 m ρ c (Proc.devRef .tc main_arg4) = W6 m ρ c (Proc.devRef .tc main_arg4)).trans (w6_arg4 m ρ c)
omit h5 h6 in
theorem w7_arg6 : W7 m ρ c (Proc.devRef .tc main_arg6) = x6 m c := (by host_keeps hostOps3 : W7 m ρ c (Proc.devRef .tc main_arg6) = W6 m ρ c (Proc.devRef .tc main_arg6)).trans (w6_arg6 m ρ c)
omit h5 h6 in
theorem w7_arg7 : W7 m ρ c (Proc.devRef .tc main_arg7) = x7 m c := (by host_keeps hostOps3 : W7 m ρ c (Proc.devRef .tc main_arg7) = W6 m ρ c (Proc.devRef .tc main_arg7)).trans (w6_arg7 m ρ c)
omit h5 h6 in
theorem w7_arg8 : W7 m ρ c (Proc.devRef .tc main_arg8) = x8 m c := (by host_keeps hostOps3 : W7 m ρ c (Proc.devRef .tc main_arg8) = W6 m ρ c (Proc.devRef .tc main_arg8)).trans (w6_arg8 m ρ c)

theorem w8_agg :
    W8 m ρ c (Proc.devRef .tc main_v11)
      = val_main_v33 (F := Ideal) (x0 m c) (x1 m c) (x2 m c) (x3 m c) (x4 m c) (x5 m c) (x6 m c) (x7 m c) := by
  refine (Take.stretch3_1 (W7 m ρ c)).trans ?_
  rw [w7_v8 m ρ c h5 h6, w7_arg7]
  exact Cert.Bridge.agg2 _ _ _ _ _ _ _ _
omit h6 in
theorem w8_im : W8 m ρ c (Proc.devRef .tc main_v2_0) = val_main_v9 (F := Ideal) (x0 m c) (x1 m c) (x2 m c) (x3 m c) (x5 m c) :=
  (by host_keeps hostOps3_1 : W8 m ρ c (Proc.devRef .tc main_v2_0) = W7 m ρ c (Proc.devRef .tc main_v2_0)).trans (w7_im m ρ c h5)
omit h5 h6 in
theorem w8_arg4 : W8 m ρ c (Proc.devRef .tc main_arg4) = x4 m c := (by host_keeps hostOps3_1 : W8 m ρ c (Proc.devRef .tc main_arg4) = W7 m ρ c (Proc.devRef .tc main_arg4)).trans (w7_arg4 m ρ c)
omit h5 h6 in
theorem w8_arg6 : W8 m ρ c (Proc.devRef .tc main_arg6) = x6 m c := (by host_keeps hostOps3_1 : W8 m ρ c (Proc.devRef .tc main_arg6) = W7 m ρ c (Proc.devRef .tc main_arg6)).trans (w7_arg6 m ρ c)
omit h5 h6 in
theorem w8_arg7 : W8 m ρ c (Proc.devRef .tc main_arg7) = x7 m c := (by host_keeps hostOps3_1 : W8 m ρ c (Proc.devRef .tc main_arg7) = W7 m ρ c (Proc.devRef .tc main_arg7)).trans (w7_arg7 m ρ c)
omit h5 h6 in
theorem w8_arg8 : W8 m ρ c (Proc.devRef .tc main_arg8) = x8 m c := (by host_keeps hostOps3_1 : W8 m ρ c (Proc.devRef .tc main_arg8) = W7 m ρ c (Proc.devRef .tc main_arg8)).trans (w7_arg8 m ρ c)

theorem w9_msg :
    W9 m ρ c (Proc.devRef .tc main_v12)
      = val_main_v36 (F := Ideal) (x0 m c) (x1 m c) (x2 m c) (x3 m c) (x4 m c) (x5 m c) (x6 m c) (x7 m c) := by
  refine ((W9_arr m ρ c 3).trans (Cert.KernelIdeal.RegionStep3.final (V8 m ρ) c)).trans ?_
  show Cert.Rows.relu (Cert.Rows.addmm (W8 m ρ c (Proc.devRef .tc main_v2_0)) (W8 m ρ c (Proc.devRef .tc main_v11)) (W8 m ρ c (Proc.devRef .tc main_arg4))) = _
  rw [w8_im m ρ c h5, w8_agg m ρ c h5 h6, w8_arg4]
  exact Cert.Bridge.step2 _ _ _ _ _ _ _ _
omit h6 in
theorem w9_im : W9 m ρ c (Proc.devRef .tc main_v2_0) = val_main_v9 (F := Ideal) (x0 m c) (x1 m c) (x2 m c) (x3 m c) (x5 m c) :=
  ((W9_arr m ρ c 1).trans (((dat3 (V8 m ρ) c).arrAt_in 1 rfl _).trans (A_eq3 (V8 m ρ) c 1))).trans (w8_im m ρ c h5)
omit h5 h6 in
theorem w9_arg4 : W9 m ρ c (Proc.devRef .tc main_arg4) = x4 m c :=
  ((W9_arr m ρ c 2).trans (((dat3 (V8 m ρ) c).arrAt_in 2 rfl _).trans (A_eq3 (V8 m ρ) c 2))).trans (w8_arg4 m ρ c)
omit h5 h6 in
theorem w9_arg6 : W9 m ρ c (Proc.devRef .tc main_arg6) = x6 m c := (W9_of_ne m ρ c main_arg6 (by decide)).trans (w8_arg6 m ρ c)
omit h5 h6 in
theorem w9_arg7 : W9 m ρ c (Proc.devRef .tc main_arg7) = x7 m c := (W9_of_ne m ρ c main_arg7 (by decide)).trans (w8_arg7 m ρ c)
omit h5 h6 in
theorem w9_arg8 : W9 m ρ c (Proc.devRef .tc main_arg8) = x8 m c := (W9_of_ne m ρ c main_arg8 (by decide)).trans (w8_arg8 m ρ c)

/-! ### The third step -/

theorem w10_v13 :
    W10 m ρ c (Proc.devRef .tc main_v13)
      = Host.gather gather_S320000x64_S2560000x1_S2560000x64_1_0_n_n_0_1_164
          (val_main_v36 (F := Ideal) (x0 m c) (x1 m c) (x2 m c) (x3 m c) (x4 m c) (x5 m c) (x6 m c) (x7 m c)) (Take.startCol1 (x6 m c)) := by
  refine (Take.stretch4 (W9 m ρ c)).trans ?_
  rw [w9_msg m ρ c h5 h6, w9_arg6]
  exact Take.take1_eq_gather _ _ h6
omit h6 in
theorem w10_im : W10 m ρ c (Proc.devRef .tc main_v2_0) = val_main_v9 (F := Ideal) (x0 m c) (x1 m c) (x2 m c) (x3 m c) (x5 m c) :=
  (by host_keeps hostOps4 : W10 m ρ c (Proc.devRef .tc main_v2_0) = W9 m ρ c (Proc.devRef .tc main_v2_0)).trans (w9_im m ρ c h5)
omit h5 h6 in
theorem w10_arg4 : W10 m ρ c (Proc.devRef .tc main_arg4) = x4 m c := (by host_keeps hostOps4 : W10 m ρ c (Proc.devRef .tc main_arg4) = W9 m ρ c (Proc.devRef .tc main_arg4)).trans (w9_arg4 m ρ c)
omit h5 h6 in
theorem w10_arg7 : W10 m ρ c (Proc.devRef .tc main_arg7) = x7 m c := (by host_keeps hostOps4 : W10 m ρ c (Proc.devRef .tc main_arg7) = W9 m ρ c (Proc.devRef .tc main_arg7)).trans (w9_arg7 m ρ c)
omit h5 h6 in
theorem w10_arg8 : W10 m ρ c (Proc.devRef .tc main_arg8) = x8 m c := (by host_keeps hostOps4 : W10 m ρ c (Proc.devRef .tc main_arg8) = W9 m ρ c (Proc.devRef .tc main_arg8)).trans (w9_arg8 m ρ c)

theorem w11_agg :
    W11 m ρ c (Proc.devRef .tc main_v16)
      = val_main_v46 (F := Ideal) (x0 m c) (x1 m c) (x2 m c) (x3 m c) (x4 m c) (x5 m c) (x6 m c) (x7 m c) := by
  refine (Take.stretch4_1 (W10 m ρ c)).trans ?_
  rw [w10_v13 m ρ c h5 h6, w10_arg7]
  exact Cert.Bridge.agg3 _ _ _ _ _ _ _ _
omit h6 in
theorem w11_im : W11 m ρ c (Proc.devRef .tc main_v2_0) = val_main_v9 (F := Ideal) (x0 m c) (x1 m c) (x2 m c) (x3 m c) (x5 m c) :=
  (by host_keeps hostOps4_1 : W11 m ρ c (Proc.devRef .tc main_v2_0) = W10 m ρ c (Proc.devRef .tc main_v2_0)).trans (w10_im m ρ c h5)
omit h5 h6 in
theorem w11_arg4 : W11 m ρ c (Proc.devRef .tc main_arg4) = x4 m c := (by host_keeps hostOps4_1 : W11 m ρ c (Proc.devRef .tc main_arg4) = W10 m ρ c (Proc.devRef .tc main_arg4)).trans (w10_arg4 m ρ c)
omit h5 h6 in
theorem w11_arg8 : W11 m ρ c (Proc.devRef .tc main_arg8) = x8 m c := (by host_keeps hostOps4_1 : W11 m ρ c (Proc.devRef .tc main_arg8) = W10 m ρ c (Proc.devRef .tc main_arg8)).trans (w10_arg8 m ρ c)

theorem w12_msg :
    W12 m ρ c (Proc.devRef .tc main_v17)
      = val_main_v49 (F := Ideal) (x0 m c) (x1 m c) (x2 m c) (x3 m c) (x4 m c) (x5 m c) (x6 m c) (x7 m c) := by
  refine ((W12_arr m ρ c 3).trans (Cert.KernelIdeal.RegionStep4.final (V11 m ρ) c)).trans ?_
  show Cert.Rows.relu (Cert.Rows.addmm (W11 m ρ c (Proc.devRef .tc main_v2_0)) (W11 m ρ c (Proc.devRef .tc main_v16)) (W11 m ρ c (Proc.devRef .tc main_arg4))) = _
  rw [w11_im m ρ c h5, w11_agg m ρ c h5 h6, w11_arg4]
  exact Cert.Bridge.step3 _ _ _ _ _ _ _ _
omit h5 h6 in
theorem w12_arg8 : W12 m ρ c (Proc.devRef .tc main_arg8) = x8 m c := (W12_of_ne m ρ c main_arg8 (by decide)).trans (w11_arg8 m ρ c)

/-! ### The final reduction -/

/-- THE KERNEL'S RESULT: the reference's last stage of the argument arrays. -/
theorem result :
    W13 m ρ c (Proc.devRef .tc main_v20)
      = val_main_v52 (F := Ideal) (x0 m c) (x1 m c) (x2 m c) (x3 m c) (x4 m c) (x5 m c) (x6 m c) (x7 m c) (x8 m c) := by
  refine (Take.stretch5 (W12 m ρ c)).trans ?_
  rw [w12_msg m ρ c h5 h6, w12_arg8]
  exact Cert.Bridge.output _ _ _ _ _ _ _ _ _

end Steps

end Cert.KernelIdeal.Fold

end
-- ==== Proof.lean ====
/-
  The certificate's five claims.

  The kernel computes a message-passing network over 320000 directed edges: it projects the 10000 node rows by a
  128 × 64 weight, looks the projected rows up at the edges' source nodes, adds the edge features' 32 × 64 projection
  (the input message) and takes the positive part (the first message); three times it looks message rows up at the
  adjacency's sources, sums them by the adjacency's destinations, multiplies by the 64 × 64 recurrent weight, adds the
  input message and takes the positive part; and it sums the last messages by their destination nodes. The reference
  does the same except that it looks the raw node rows up first and projects the looked-up rows, and that its lookups
  clamp an index outside the table where the kernel's overwrite such a row by the NaN word.

  On the extended reals a change of float format is the identity and every product and sum is exact, so the two
  programs agree stage by stage wherever the lookup indices name rows of their tables: looking rows up commutes with
  the projection (entry (e, q) of either is ∑ j, node (r e, j) · W (j, q), no law of the extended reals beyond reading
  both sides at an index), and every later stage applies the same operation to equal arrays. The precondition puts the
  two lookup index arrays in range, which is all the proof takes from it: no finiteness is used.

  The three frames are the generated ones (the reference's is its generated run with the result dropped), and the ideal
  pass rewrote nothing, so the idealization claim is trivial.
-/
import proofs.«407001_j54528904790123_3_alg».proof.Defs
import proofs.«407001_j54528904790123_3_alg».proof.Proof.Gen.Kernel
import proofs.«407001_j54528904790123_3_alg».proof.Proof.Gen.Kernel.Frame
import proofs.«407001_j54528904790123_3_alg».proof.Proof.Gen.KernelIdeal
import proofs.«407001_j54528904790123_3_alg».proof.Proof.Gen.KernelIdeal.Frame
import proofs.«407001_j54528904790123_3_alg».proof.Proof.Gen.ReferenceIdeal
import proofs.«407001_j54528904790123_3_alg».proof.Proof.Gen.ReferenceIdeal.Run
import proofs.«407001_j54528904790123_3_alg».proof.Proof.Gen.ReferenceIdeal.Read
import proofs.«407001_j54528904790123_3_alg».proof.Proof.Gen.Pre_finite_inputs
import proofs.«407001_j54528904790123_3_alg».proof.Proof.RunVal
import proofs.«407001_j54528904790123_3_alg».proof.Proof.PreRange
import proofs.«407001_j54528904790123_3_alg».proof.Proof.Fold
import Idealize.ShloMosaic.Adequacy
import Idealize.ShloMosaic.Init

noncomputable section

namespace Cert.Proof

open Idealize.ShloMosaic Idealize.ShloMosaic.TcCoe Idealize.SL.Sem

/-- The kernel as printed runs to its end, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass applied no rewrite. -/
theorem preserves : Cert.preserves_Kernel_KernelIdeal := trivial

/-- From memories agreeing on the nine arguments, with the lookup indices in range, both idealized programs end with the
    reference's last stage of the arguments in their result buffers. -/
theorem algebraic : Cert.algebraic_KernelIdeal_ReferenceIdeal := by
  intro m ρ m' ρ' hpre hagree
  refine ⟨fun c => Cert.KernelIdeal.Gen.W13 m ρ c (Proc.devRef .tc Cert.KernelIdeal.main_v20),
    Cert.KernelIdeal.RunVal.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  obtain ⟨h5, h6⟩ := Cert.PreRange.range_of_fn _ _ _ _ _ _ _ _ _ (hpre c)
  rw [Cert.ReferenceIdeal.Read.val_main_v52_eq, e0, e1, e2, e3, e4, e5, e6, e7, e8]
  exact (Cert.KernelIdeal.Fold.result m ρ c h5 h6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
